-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S3200000 : Shape := ⟨1, ![3200000]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S64x2 .f32) (main_arg6 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x2 .f32 := Host.absf main_arg5
  let main_cst_6 : FVec F S_ .f32 := constant S_ .f32 0x7F800000#32
  let main_v20 : FVec F S64x2 .f32 := broadcastInDim S64x2 ![] bcast_S_S64x2 main_cst_6
  let main_v21 : IVec S64x2 1 := cmpf .olt main_v19 main_v20
  let main_c_7 : IVec S_ 1 := constantI S_ 1 1#1
  let main_v22 : IVec S_ 1 := (fun x v => Host.reduce IntOp.andi x v reducesTo_S64x2_S_d0_1 h_S_) main_v21 main_c_7
  let main_v23 : IVec S_ 1 := andi main_v18 main_v22
  let main_v24 : FVec F S2 .f32 := Host.absf main_arg6
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  main_v28

def fn {F : FTy → Type} [FloatOps F] (main_arg0 : FVec F S100000x128 .f32) (main_arg1 : IVec S2x3200000 32) (main_arg2 : FVec F S3200000 .f32) (main_arg3 : FVec F S128x64 .f32) (main_arg4 : FVec F S64 .f32) (main_arg5 : FVec F S64x2 .f32) (main_arg6 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x128 : Shape := ⟨2, ![100000, 128]⟩
abbrev S2x3200000 : Shape := ⟨2, ![2, 3200000]⟩
abbrev S3200000 : Shape := ⟨1, ![3200000]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x128 : Shape := ⟨2, ![10000, 128]⟩
abbrev S10000x64 : Shape := ⟨2, ![10000, 64]⟩
abbrev S3300000x64 : Shape := ⟨2, ![3300000, 64]⟩
abbrev S20000x64 : Shape := ⟨2, ![20000, 64]⟩
abbrev S20000x1 : Shape := ⟨2, ![20000, 1]⟩
abbrev S1x64 : Shape := ⟨2, ![1, 64]⟩
abbrev S100000x2 : Shape := ⟨2, ![100000, 2]⟩
abbrev S10000x2 : Shape := ⟨2, ![10000, 2]⟩
abbrev S3300000x2 : Shape := ⟨2, ![3300000, 2]⟩
abbrev S20000x2 : Shape := ⟨2, ![20000, 2]⟩
abbrev S1x2 : Shape := ⟨2, ![1, 2]⟩

abbrev nBuf : Space → Nat
  | .hbm => 86
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000, .f32⟩
  | .hbm, ⟨3, _⟩ => ⟨S128x64, .f32⟩
  | .hbm, ⟨4, _⟩ => ⟨S64, .f32⟩
  | .hbm, ⟨5, _⟩ => ⟨S64x2, .f32⟩
  | .hbm, ⟨6, _⟩ => ⟨S2, .f32⟩
  | .hbm, ⟨7, _⟩ => ⟨S1x3200000, .i32⟩
  | .hbm, ⟨8, _⟩ => ⟨S3200000, .i32⟩
  | .hbm, ⟨9, _⟩ => ⟨S100000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S100000, .i32⟩
  | .hbm, ⟨14, _⟩ => ⟨S3300000, .i32⟩
  | .hbm, ⟨15, _⟩ => ⟨S_, .f32⟩
  | .hbm, ⟨16, _⟩ => ⟨S100000, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000, .f32⟩
  | .hbm, ⟨49, _⟩ => ⟨S3300000, .f32⟩
  | .hbm, ⟨50, _⟩ => ⟨S100000x64, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x64, .f32⟩
  | .hbm, ⟨60, _⟩ => ⟨S3300000x1, .f32⟩
  | .hbm, ⟨61, _⟩ => ⟨S3300000x64, .f32⟩
  | .hbm, ⟨62, _⟩ => ⟨S_, .f32⟩
  | .hbm, ⟨63, _⟩ => ⟨S100000x64, .f32⟩
  | .hbm, ⟨64, _⟩ => ⟨S3300000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x2, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x2, .f32⟩
  | .hbm, ⟨78, _⟩ => ⟨S3300000x1, .f32⟩
  | .hbm, ⟨79, _⟩ => ⟨S3300000x2, .f32⟩
  | .hbm, ⟨80, _⟩ => ⟨S_, .f32⟩
  | .hbm, ⟨81, _⟩ => ⟨S100000x2, .f32⟩
  | .hbm, ⟨82, _⟩ => ⟨S3300000x1, .i32⟩
  | .hbm, ⟨83, _⟩ => ⟨S100000x2, .f32⟩
  | .hbm, ⟨84, _⟩ => ⟨S1x2, .f32⟩
  | .hbm, ⟨85, _⟩ => ⟨S100000x2, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S20000x64, .f32⟩
  | .local _ .vmem, ⟨6, _⟩ => ⟨S20000x64, .f32⟩
  | .local _ .vmem, ⟨7, _⟩ => ⟨S20000x1, .f32⟩
  | .local _ .vmem, ⟨8, _⟩ => ⟨S20000x1, .f32⟩
  | .local _ .vmem, ⟨9, _⟩ => ⟨S20000x64, .f32⟩
  | .local _ .vmem, ⟨10, _⟩ => ⟨S20000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S64x2, .f32⟩
  | .local _ .vmem, ⟨19, _⟩ => ⟨S10000x2, .f32⟩
  | .local _ .vmem, ⟨20, _⟩ => ⟨S10000x2, .f32⟩
  | .local _ .vmem, ⟨21, _⟩ => ⟨S20000x2, .f32⟩
  | .local _ .vmem, ⟨22, _⟩ => ⟨S20000x2, .f32⟩
  | .local _ .vmem, ⟨23, _⟩ => ⟨S20000x1, .f32⟩
  | .local _ .vmem, ⟨24, _⟩ => ⟨S20000x1, .f32⟩
  | .local _ .vmem, ⟨25, _⟩ => ⟨S20000x2, .f32⟩
  | .local _ .vmem, ⟨26, _⟩ => ⟨S20000x2, .f32⟩
  | .local _ .vmem, ⟨27, _⟩ => ⟨S10000x2, .f32⟩
  | .local _ .vmem, ⟨28, _⟩ => ⟨S10000x2, .f32⟩
  | .local _ .vmem, ⟨29, _⟩ => ⟨S1x2, .f32⟩
  | .local _ .vmem, ⟨30, _⟩ => ⟨S10000x2, .f32⟩
  | .local _ .vmem, ⟨31, _⟩ => ⟨S10000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![165], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S20000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S20000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![165], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S20000x2 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S20000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S20000x2 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x2 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x2 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x2 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S3300000_S3300000x1 : S3300000.ShapeCasts S3300000x1
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  inb_S20000x1_S20000x1_0_0 : ∀ a, (![0, 0] : Fin 2 → Nat) a + S20000x1.size a ≤ S20000x1.size a
  h_S20000x1 : 0 < S20000x1.numel
  shapeCasts_S20000x1_S20000x1 : S20000x1.ShapeCasts S20000x1
  broadcasts_S20000x1_S20000x64 : S20000x1.Broadcasts S20000x64
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x2_S64x2_0_0 : ∀ a, (![0, 0] : Fin 2 → Nat) a + S64x2.size a ≤ S64x2.size a
  h_S64x2 : 0 < S64x2.numel
  inb_S10000x2_S10000x2_0_0 : ∀ a, (![0, 0] : Fin 2 → Nat) a + S10000x2.size a ≤ S10000x2.size a
  h_S10000x2 : 0 < S10000x2.numel
  inb_S20000x2_S20000x2_0_0 : ∀ a, (![0, 0] : Fin 2 → Nat) a + S20000x2.size a ≤ S20000x2.size a
  h_S20000x2 : 0 < S20000x2.numel
  shapeCasts_S20000x2_S20000x2 : S20000x2.ShapeCasts S20000x2
  broadcasts_S20000x1_S20000x2 : S20000x1.Broadcasts S20000x2
  bcast_S_S100000x2 : S_.BroadcastsInDim S100000x2 (![] : Fin 0 → Fin S100000x2.rank)
  shapeCasts_S2_S1x2 : S2.ShapeCasts S1x2
  shapeCasts_S10000x2_S10000x2 : S10000x2.ShapeCasts S10000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x64_S10000x64_1_0_0_1_n_n_wf : DotDims.WF S10000x128 S128x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x2_S10000x2_1_0_0_1_n_n_wf : DotDims.WF S10000x64 S64x2 S10000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S3300000x64.size a
  hwx1_0 : ∀ i : grid1.Coords, EltTy.bits .f32 = 32 ∨ (Rect.block (s := S3300000x64) S20000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S20000x1.size a ≤ S3300000x1.size a
  hwx1_1 : ∀ i : grid1.Coords, EltTy.bits .f32 = 32 ∨ (Rect.block (s := S3300000x1) S20000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x64.size a ≤ S3300000x64.size a
  hwx1_2 : ∀ i : grid1.Coords, EltTy.bits .f32 = 32 ∨ (Rect.block (s := S3300000x64) S20000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x2.size a ≤ S64x2.size a
  hwx3_1 : ∀ i : grid3.Coords, EltTy.bits .f32 = 32 ∨ (Rect.block (s := S64x2) S64x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x2.size a ≤ S100000x2.size a
  hwx3_2 : ∀ i : grid3.Coords, EltTy.bits .f32 = 32 ∨ (Rect.block (s := S100000x2) S10000x2.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S20000x2.size a ≤ S3300000x2.size a
  hwx4_0 : ∀ i : grid4.Coords, EltTy.bits .f32 = 32 ∨ (Rect.block (s := S3300000x2) S20000x2.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S20000x1.size a ≤ S3300000x1.size a
  hwx4_1 : ∀ i : grid4.Coords, EltTy.bits .f32 = 32 ∨ (Rect.block (s := S3300000x1) S20000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S20000x2.size a ≤ S3300000x2.size a
  hwx4_2 : ∀ i : grid4.Coords, EltTy.bits .f32 = 32 ∨ (Rect.block (s := S3300000x2) S20000x2.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x2.size a ≤ S100000x2.size a
  hwx5_0 : ∀ i : grid5.Coords, EltTy.bits .f32 = 32 ∨ (Rect.block (s := S100000x2) S10000x2.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x2.size a ≤ S1x2.size a
  hwx5_1 : ∀ i : grid5.Coords, EltTy.bits .f32 = 32 ∨ (Rect.block (s := S1x2) S1x2.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x2.size a ≤ S100000x2.size a
  hwx5_2 : ∀ i : grid5.Coords, EltTy.bits .f32 = 32 ∨ (Rect.block (s := S100000x2) S10000x2.size (cc5_transform_2 i) (hinb5_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S20000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S20000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v47) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S10000x2.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v55) S20000x2.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v56) S20000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v57) S20000x2.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v60) S10000x2.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v61) S1x2.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v62) S10000x2.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S3200000 : Shape := ⟨1, ![3200000]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x2 : Shape := ⟨2, ![100000, 2]⟩
abbrev S3300000x2 : Shape := ⟨2, ![3300000, 2]⟩
abbrev S1x2 : Shape := ⟨2, ![1, 2]⟩

abbrev nBuf : Space → Nat
  | .hbm => 136
  | .vmem => 0
  | .smem => 0
  | _ => 0

abbrev hbmTy0_0 (i : Nat) : BufTy := match i % 128 with
  | 0 => ⟨S100000x128, .f32⟩
  | 1 => ⟨S2x3200000, .i32⟩
  | 2 => ⟨S3200000, .f32⟩
  | 3 => ⟨S128x64, .f32⟩
  | 4 => ⟨S64, .f32⟩
  | 5 => ⟨S64x2, .f32⟩
  | 6 => ⟨S2, .f32⟩
  | 7 => ⟨S1x3200000, .i32⟩
  | 8 => ⟨S3200000, .i32⟩
  | 9 => ⟨S100000, .i32⟩
  | 10 => ⟨S3300000, .i32⟩
  | 11 => ⟨S1x3200000, .i32⟩
  | 12 => ⟨S3200000, .i32⟩
  | 13 => ⟨S100000, .i32⟩
  | 14 => ⟨S3300000, .i32⟩
  | 15 => ⟨S_, .f32⟩
  | 16 => ⟨S100000, .f32⟩
  | 17 => ⟨S3300000, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S3300000, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000, .f32⟩
  | 49 => ⟨S3300000, .f32⟩
  | 50 => ⟨S100000x64, .f32⟩
  | 51 => ⟨S_, .i32⟩
  | 52 => ⟨S3300000, .i32⟩
  | 53 => ⟨S3300000, .i1⟩
  | 54 => ⟨S_, .i32⟩
  | 55 => ⟨S3300000, .i32⟩
  | 56 => ⟨S3300000, .i32⟩
  | 57 => ⟨S3300000, .i32⟩
  | 58 => ⟨S3300000x1, .i32⟩
  | 59 => ⟨S3300000x64, .f32⟩
  | 60 => ⟨S3300000x1, .f32⟩
  | 61 => ⟨S3300000x64, .f32⟩
  | 62 => ⟨S3300000x64, .f32⟩
  | 63 => ⟨S_, .f32⟩
  | 64 => ⟨S100000x64, .f32⟩
  | 65 => ⟨S3300000x1, .i32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S1x3200000, .i32⟩
  | 74 => ⟨S3200000, .i32⟩
  | 75 => ⟨S100000, .i32⟩
  | 76 => ⟨S3300000, .i32⟩
  | 77 => ⟨S1x3200000, .i32⟩
  | 78 => ⟨S3200000, .i32⟩
  | 79 => ⟨S100000, .i32⟩
  | 80 => ⟨S3300000, .i32⟩
  | 81 => ⟨S_, .f32⟩
  | 82 => ⟨S100000, .f32⟩
  | 83 => ⟨S3300000, .f32⟩
  | 84 => ⟨S_, .f32⟩
  | 85 => ⟨S100000, .f32⟩
  | 86 => ⟨S3300000x1, .i32⟩
  | 87 => ⟨S100000, .f32⟩
  | 88 => ⟨S_, .f32⟩
  | 89 => ⟨S100000, .f32⟩
  | 90 => ⟨S100000, .i1⟩
  | 91 => ⟨S100000, .f32⟩
  | 92 => ⟨S_, .f32⟩
  | 93 => ⟨S_, .f32⟩
  | 94 => ⟨S100000, .f32⟩
  | 95 => ⟨S100000, .f32⟩
  | 96 => ⟨S_, .i32⟩
  | 97 => ⟨S3300000, .i32⟩
  | 98 => ⟨S3300000, .i1⟩
  | 99 => ⟨S_, .i32⟩
  | 100 => ⟨S3300000, .i32⟩
  | 101 => ⟨S3300000, .i32⟩
  | 102 => ⟨S3300000, .i32⟩
  | 103 => ⟨S3300000x1, .i32⟩
  | 104 => ⟨S3300000, .f32⟩
  | 105 => ⟨S3300000, .f32⟩
  | 106 => ⟨S_, .i32⟩
  | 107 => ⟨S3300000, .i32⟩
  | 108 => ⟨S3300000, .i1⟩
  | 109 => ⟨S_, .i32⟩
  | 110 => ⟨S3300000, .i32⟩
  | 111 => ⟨S3300000, .i32⟩
  | 112 => ⟨S3300000, .i32⟩
  | 113 => ⟨S3300000x1, .i32⟩
  | 114 => ⟨S3300000, .f32⟩
  | 115 => ⟨S3300000, .f32⟩
  | 116 => ⟨S100000x2, .f32⟩
  | 117 => ⟨S_, .i32⟩
  | 118 => ⟨S3300000, .i32⟩
  | 119 => ⟨S3300000, .i1⟩
  | 120 => ⟨S_, .i32⟩
  | 121 => ⟨S3300000, .i32⟩
  | 122 => ⟨S3300000, .i32⟩
  | 123 => ⟨S3300000, .i32⟩
  | 124 => ⟨S3300000x1, .i32⟩
  | 125 => ⟨S3300000x2, .f32⟩
  | 126 => ⟨S3300000x1, .f32⟩
  | 127 => ⟨S3300000x2, .f32⟩
  | _ => ⟨S100000x128, .f32⟩

abbrev hbmTy0_1 (i : Nat) : BufTy := match i % 128 with
  | 0 => ⟨S3300000x2, .f32⟩
  | 1 => ⟨S_, .f32⟩
  | 2 => ⟨S100000x2, .f32⟩
  | 3 => ⟨S3300000x1, .i32⟩
  | 4 => ⟨S100000x2, .f32⟩
  | 5 => ⟨S1x2, .f32⟩
  | 6 => ⟨S100000x2, .f32⟩
  | 7 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call1_cst : Ref sig .tc := ⟨.hbm, 70, rfl⟩
abbrev main_call1_v0 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_9 : Ref sig .tc := ⟨.hbm, 81, rfl⟩
abbrev main_v59 : Ref sig .tc := ⟨.hbm, 82, rfl⟩
abbrev main_v60 : Ref sig .tc := ⟨.hbm, 83, rfl⟩
abbrev main_cst_10 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_11 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_12 : Ref sig .tc := ⟨.hbm, 92, rfl⟩
abbrev main_call2_v0 : Ref sig .tc := ⟨.hbm, 93, rfl⟩
abbrev main_call2_v1 : Ref sig .tc := ⟨.hbm, 94, rfl⟩
abbrev main_v67 : Ref sig .tc := ⟨.hbm, 95, rfl⟩
abbrev main_c_13 : Ref sig .tc := ⟨.hbm, 96, rfl⟩
abbrev main_v68 : Ref sig .tc := ⟨.hbm, 97, rfl⟩
abbrev main_v69 : Ref sig .tc := ⟨.hbm, 98, rfl⟩
abbrev main_c_14 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_c_15 : Ref sig .tc := ⟨.hbm, 106, rfl⟩
abbrev main_v76 : Ref sig .tc := ⟨.hbm, 107, rfl⟩
abbrev main_v77 : Ref sig .tc := ⟨.hbm, 108, rfl⟩
abbrev main_c_16 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_c_17 : Ref sig .tc := ⟨.hbm, 117, rfl⟩
abbrev main_v85 : Ref sig .tc := ⟨.hbm, 118, rfl⟩
abbrev main_v86 : Ref sig .tc := ⟨.hbm, 119, rfl⟩
abbrev main_c_18 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_19 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x2_S100000x2_1_0_0_1_n_n_wf : DotDims.WF S100000x64 S64x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

class Facts : Prop extends Facts₀ where

variable [Facts]
-- ==== Proof.GcnOps.lean ====
/-
  The array functions a graph-convolution layer is made of, index by index over the extended reals.

  A layer is: a matrix product of the node features with a weight matrix; each gathered row scaled by its edge's
  normalisation coefficient; after the scatter-add over destination nodes, the bias row added to every row, and for the
  hidden layer the positive part taken. Each is stated here as one function of whole arrays:
  * `matProd a b` at `(r, c)` is `Σₖ a (r, k) · b (k, c)`;
  * `rowScale h n` at `(e, d)` is `h (e, d) · n (e, 0)`, `n` a column `[E, 1]`;
  * `addRow a b` at `(r, d)` is `a (r, d) + b (0, d)`, `b` a row `[1, D]`;
  * `addRowMax a b z` at `(r, d)` is `max (a (r, d) + b (0, d)) z`;
  * `col n` and `row b` are a one-axis array laid out as a column `[E, 1]` and as a row `[1, D]`.
  Nothing here needs the entries to be finite: no sum is rearranged across a product.
-/
import Idealize.ShloMosaic.PureOps.Ideal.Laws
import Idealize.ShloMosaic.Lib.ValueIdx

noncomputable section

namespace Cert.Gcn

open Idealize.ShloMosaic Idealize.ShloMosaic.ValueIdx
open scoped BigOperators

/-- The matrix product `[M, K] × [K, N]`: at `(r, c)` the sum over `k` of `a (r, k) · b (k, c)`. -/
def matProd {M K N : ℕ} (a : (⟨2, ![M, K]⟩ : Shape).Idx → EReal) (b : (⟨2, ![K, N]⟩ : Shape).Idx → EReal) :
    (⟨2, ![M, N]⟩ : Shape).Idx → EReal :=
  fun i => ∑ k : Fin K, a (ix2 (i 0) k) * b (ix2 k (i 1))

/-- Every row `e` of `h` multiplied by the entry `e` of the column `n`. -/
def rowScale {E D : ℕ} (h : (⟨2, ![E, D]⟩ : Shape).Idx → EReal) (n : (⟨2, ![E, 1]⟩ : Shape).Idx → EReal) :
    (⟨2, ![E, D]⟩ : Shape).Idx → EReal :=
  fun i => h i * n (ix2 (i 0) (0 : Fin 1))

/-- The row `b` added to every row of `a`. -/
def addRow {M D : ℕ} (a : (⟨2, ![M, D]⟩ : Shape).Idx → EReal) (b : (⟨2, ![1, D]⟩ : Shape).Idx → EReal) :
    (⟨2, ![M, D]⟩ : Shape).Idx → EReal :=
  fun i => a i + b (ix2 (0 : Fin 1) (i 1))

/-- The row `b` added to every row of `a`, then the larger of that and `z` (with `z = 0`: the positive part). -/
def addRowMax {M D : ℕ} (a : (⟨2, ![M, D]⟩ : Shape).Idx → EReal) (b : (⟨2, ![1, D]⟩ : Shape).Idx → EReal) (z : EReal) :
    (⟨2, ![M, D]⟩ : Shape).Idx → EReal :=
  fun i => max (a i + b (ix2 (0 : Fin 1) (i 1))) z

/-- A one-axis array as a column: entry `(e, 0)` is the array's entry `e`. -/
def col {E : ℕ} (n : (⟨1, ![E]⟩ : Shape).Idx → EReal) : (⟨2, ![E, 1]⟩ : Shape).Idx → EReal := fun i => n (ix1 (i 0))

/-- A one-axis array as a row: entry `(0, d)` is the array's entry `d`. -/
def row {D : ℕ} (b : (⟨1, ![D]⟩ : Shape).Idx → EReal) : (⟨2, ![1, D]⟩ : Shape).Idx → EReal := fun i => b (ix1 (i 1))

theorem matProd_apply {M K N : ℕ} (a : (⟨2, ![M, K]⟩ : Shape).Idx → EReal) (b : (⟨2, ![K, N]⟩ : Shape).Idx → EReal)
    (r : Fin M) (c : Fin N) : matProd a b (ix2 r c) = ∑ k : Fin K, a (ix2 r k) * b (ix2 k c) := rfl

theorem rowScale_apply {E D : ℕ} (h : (⟨2, ![E, D]⟩ : Shape).Idx → EReal) (n : (⟨2, ![E, 1]⟩ : Shape).Idx → EReal)
    (e : Fin E) (d : Fin D) : rowScale h n (ix2 e d) = h (ix2 e d) * n (ix2 e (0 : Fin 1)) := rfl

theorem addRow_apply {M D : ℕ} (a : (⟨2, ![M, D]⟩ : Shape).Idx → EReal) (b : (⟨2, ![1, D]⟩ : Shape).Idx → EReal)
    (r : Fin M) (d : Fin D) : addRow a b (ix2 r d) = a (ix2 r d) + b (ix2 (0 : Fin 1) d) := rfl

theorem addRowMax_apply {M D : ℕ} (a : (⟨2, ![M, D]⟩ : Shape).Idx → EReal) (b : (⟨2, ![1, D]⟩ : Shape).Idx → EReal) (z : EReal)
    (r : Fin M) (d : Fin D) : addRowMax a b z (ix2 r d) = max (a (ix2 r d) + b (ix2 (0 : Fin 1) d)) z := rfl

end Cert.Gcn

end
-- ==== Proof.Spec.lean ====
/-
  The two-layer graph convolution as one function of the seven argument arrays, built from named stages.

  Both programs compute, from the edge list and the edge weights, the source and destination node of every edge with one
  self-loop per node appended (`src`, `dst`), the weights with ones appended (`ewf`), the weighted in-degree (`deg`), its inverse
  square root where positive and zero elsewhere (`dinv`), and the edge coefficient `dinv[src] · w · dinv[dst]` (`norm`); then, per
  layer, the projection of the node features, the rows gathered by source node, each scaled by its coefficient, summed into their
  destination node, and the bias added (with the positive part after the first layer). The gathers, the scatter-adds and the
  index arithmetic are the host's operations, spelt once here; the dense steps are the array functions of `Cert.Gcn`.
-/
import proofs.«100964_j88845693485538_1_alg».proof.Proof.Gen.ReferenceIdeal
import proofs.«100964_j88845693485538_1_alg».proof.Proof.GcnOps

noncomputable section

namespace Cert.Spec

open Cert.ReferenceIdeal Cert.ReferenceIdeal.Gen Idealize.ShloMosaic

/-! ## Edges, weights and the normalisation coefficient -/

/-- Row `k` of the edge list, one axis, with the node numbers `0 … 99999` appended (the self-loops). -/
def endpoints0 (ei : IVec S2x3200000 32) : IVec S3300000 32 :=
  concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0

def endpoints1 (ei : IVec S2x3200000 32) : IVec S3300000 32 :=
  concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0

/-- The edge weights with a one appended for every self-loop. -/
def ewf (ew : FVec Ideal S3200000 .f32) : FVec Ideal S3300000 .f32 :=
  concatenate S3300000 0 [⟨S3200000, ew⟩, ⟨S100000, (broadcastInDim S100000 ![] bcast_S_S100000 (constant (F := Ideal) S_ .f32 0x3F800000#32))⟩] concatenates_S3200000_S100000_S3300000_d0

/-- A negative node number counted from the end: `s + 100000` where `s < 0`, else `s`. -/
def wrap (s : IVec S3300000 32) : IVec S3300000 32 :=
  select (cmpi .slt s (broadcastInDim S3300000 ![] bcast_S_S3300000 (constantI S_ 32 0#32))) (addi s (broadcastInDim S3300000 ![] bcast_S_S3300000 (constantI S_ 32 100000#32))) s

/-- The weighted in-degree: the weights summed into their destination nodes. -/
def degOf (dst : IVec S3300000 32) (w : FVec Ideal S3300000 .f32) : FVec Ideal S100000 .f32 :=
  Host.scatterAdd (F := Ideal) scatter_S100000_S3300000x1_S3300000_n_0_0_1 (broadcastInDim S100000 ![] bcast_S_S100000 (constant (F := Ideal) S_ .f32 0x00000000#32)) (broadcastInDim S3300000x1 ![0] bcast_S3300000_S3300000x1_0 dst) w

/-- The inverse square root of the degree where it is positive, zero elsewhere. -/
def dinvOf (deg : FVec Ideal S100000 .f32) : FVec Ideal S100000 .f32 :=
  select (cmpf .ogt deg (broadcastInDim S100000 ![] bcast_S_S100000 (constant (F := Ideal) S_ .f32 0x00000000#32))) (Host.rsqrt (F := Ideal) (φ := .f32) deg) (broadcastInDim S100000 ![] bcast_S_S100000 (id (constant (F := Ideal) S_ .f32 0x00000000#32)))

/-- The edge coefficient `dinv[src] · w · dinv[dst]`. -/
def normOf (dinv : FVec Ideal S100000 .f32) (src dst : IVec S3300000 32)
    (w : FVec Ideal S3300000 .f32) : FVec Ideal S3300000 .f32 :=
  mulf (mulf (Host.gather gather_S100000_S3300000x1_S3300000_n_0_n_n_0_1_1 dinv (broadcastInDim S3300000x1 ![0] bcast_S3300000_S3300000x1_0 (wrap src))) w)
    (Host.gather gather_S100000_S3300000x1_S3300000_n_0_n_n_0_1_1 dinv (broadcastInDim S3300000x1 ![0] bcast_S3300000_S3300000x1_0 (wrap dst)))

def norm (ei : IVec S2x3200000 32) (ew : FVec Ideal S3200000 .f32) : FVec Ideal S3300000 .f32 :=
  normOf (dinvOf (degOf (endpoints1 ei) (ewf ew))) (endpoints0 ei) (endpoints1 ei) (ewf ew)

/-! ## Gathering rows by source node, summing rows into destination nodes -/

def gather64 (h : FVec Ideal S100000x64 .f32) (src : IVec S3300000 32) : FVec Ideal S3300000x64 .f32 :=
  Host.gather gather_S100000x64_S3300000x1_S3300000x64_1_0_n_n_0_1_164 h (broadcastInDim S3300000x1 ![0] bcast_S3300000_S3300000x1_0 (wrap src))

def scatter64 (dst : IVec S3300000 32) (msg : FVec Ideal S3300000x64 .f32) : FVec Ideal S100000x64 .f32 :=
  Host.scatterAdd (F := Ideal) scatter_S100000x64_S3300000x1_S3300000x64_1_0_0_1 (broadcastInDim S100000x64 ![] bcast_S_S100000x64 (constant (F := Ideal) S_ .f32 0x00000000#32)) (broadcastInDim S3300000x1 ![0] bcast_S3300000_S3300000x1_0 dst) msg

def gather2 (h : FVec Ideal S100000x2 .f32) (src : IVec S3300000 32) : FVec Ideal S3300000x2 .f32 :=
  Host.gather gather_S100000x2_S3300000x1_S3300000x2_1_0_n_n_0_1_12 h (broadcastInDim S3300000x1 ![0] bcast_S3300000_S3300000x1_0 (wrap src))

def scatter2 (dst : IVec S3300000 32) (msg : FVec Ideal S3300000x2 .f32) : FVec Ideal S100000x2 .f32 :=
  Host.scatterAdd (F := Ideal) scatter_S100000x2_S3300000x1_S3300000x2_1_0_0_1 (broadcastInDim S100000x2 ![] bcast_S_S100000x2 (constant (F := Ideal) S_ .f32 0x00000000#32)) (broadcastInDim S3300000x1 ![0] bcast_S3300000_S3300000x1_0 dst) msg

/-! ## The two layers -/

/-- The hidden features: `max (Σ_{e → i} norm e · (x W1)[src e] + b1, 0)`. -/
def hidden (x : FVec Ideal S100000x128 .f32) (ei : IVec S2x3200000 32) (ew : FVec Ideal S3200000 .f32)
    (W1 : FVec Ideal S128x64 .f32) (b1 : FVec Ideal S64 .f32) : FVec Ideal S100000x64 .f32 :=
  Cert.Gcn.addRowMax (scatter64 (endpoints1 ei) (Cert.Gcn.rowScale (gather64 (Cert.Gcn.matProd x W1) (endpoints0 ei)) (Cert.Gcn.col (norm ei ew)))) (Cert.Gcn.row b1)
    (Ideal.ofBits .f32 0x00000000#32)

/-- The result: `Σ_{e → i} norm e · (hidden W2)[src e] + b2`. -/
def result (x : FVec Ideal S100000x128 .f32) (ei : IVec S2x3200000 32) (ew : FVec Ideal S3200000 .f32)
    (W1 : FVec Ideal S128x64 .f32) (b1 : FVec Ideal S64 .f32)
    (W2 : FVec Ideal S64x2 .f32) (b2 : FVec Ideal S2 .f32) : FVec Ideal S100000x2 .f32 :=
  Cert.Gcn.addRow (scatter2 (endpoints1 ei) (Cert.Gcn.rowScale (gather2 (Cert.Gcn.matProd (hidden x ei ew W1 b1) W2) (endpoints0 ei)) (Cert.Gcn.col (norm ei ew)))) (Cert.Gcn.row b2)

end Cert.Spec

end
-- ==== Proof.LibRowOps.lean ====
/-
  Two-axis operations read at a row and a column.

  General facts about arrays with two axes, written over indices `ix2 r c` with literal-typed coordinates, at the
  extended reals where arithmetic is involved:
  * a plain matrix product `[M, K] × [K, N]` into a zero accumulator is, at `(r, c)`, the sum over `k` of the left
    operand at `(r, k)` times the right at `(k, c)`;
  * a sum over the second axis of an `[R, n]` array is, at `r`, the sum over `k` of the array at `(r, k)`;
  * a one-axis array `[a]` cast to a column `[a, 1]` reads its entry `r`; a column `[a, 1]` broadcast to `[a, b]`
    reads the column's entry in the same row;
  * two arrays joined along the second axis read the first where the column falls inside it and the second, the first's
    width less, elsewhere.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx
open scoped BigOperators

/-! ## A plain matrix product -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_lhs1 (M K N : ℕ) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (M K N : ℕ) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction index of a plain product, re-indexed by the one contracted coordinate. -/
theorem plain_sum (M K N : ℕ) (a : (⟨2, ![M, K]⟩ : Shape).Idx → EReal) (b : (⟨2, ![K, N]⟩ : Shape).Idx → EReal)
    (r : Fin M) (c : Fin N) :
    ∑ k : (DotDims.plain M K N).contr.Idx,
        a ((DotDims.plain M K N).lhsIdx (ix2 r c) k) * b ((DotDims.plain M K N).rhsIdx (ix2 r c) k)
      = ∑ k : Fin K, a (ix2 r k) * b (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun ax => Fin.ext (by
      match ax with
      | ⟨0, _⟩ => exact plain_lhs0 M K N _ _
      | ⟨1, _⟩ => exact (plain_lhs1 M K N _ _).trans hk)
  have er : (DotDims.plain M K N).rhsIdx (ix2 r c) ((contrEquiv1 (DotDims.plain M K N) K rfl rfl).symm k) = ix2 k c :=
    funext fun ax => Fin.ext (by
      match ax with
      | ⟨0, _⟩ => exact (plain_rhs0 M K N _ _).trans hk
      | ⟨1, _⟩ => exact plain_rhs1 M K N _ _)
  rw [el, er]

/-- A matrix product with plain dimension numbers into the zero accumulator, at `(r, c)`: `Σₖ a (r, k) · b (k, c)`.
    The dimension record may be any whose data are the plain ones (`hD`, by `rfl` for a printed record). -/
theorem matmul_plain_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (b : FVec Ideal ⟨2, ![K, N]⟩ φ₂) (r : Fin M) (c : Fin N) :
    matmul D prec a b (constant ⟨2, ![M, N]⟩ .f32 0x00000000#32) (ix2 r c) = ∑ k : Fin K, a (ix2 r k) * b (ix2 k c) := by
  subst hD
  exact (Ideal.matmul_constant_zero_apply (DotDims.plain M K N) prec a b (ix2 r c)).trans (plain_sum M K N a b r c)

/-! ## A sum along the second axis -/

/-- A float sum over axis 1 of an `[R, n]` array from the zero word, at `r`: `Σₖ x (r, k)`. -/
theorem multiReduction_add_rows {R n : ℕ} {φ : FTy} (x : FVec Ideal ⟨2, ![R, n]⟩ φ) (acc : BitVec φ.bits)
    (h : (⟨2, ![R, n]⟩ : Shape).Reduces [1] ⟨1, ![R]⟩) (hφ : FKind.Formats φ) (hacc : acc = FKind.add.neutral φ hφ) (r : Fin R) :
    multiReduction .add [1] ⟨1, ![R]⟩ x acc h hφ hacc (ix1 r) = ∑ k : Fin n, x (ix2 r k) := by
  refine (Ideal.multiReduction_add_single x acc h hφ hacc (ix1 r)).trans ?_
  refine Finset.sum_congr rfl fun k _ => congrArg x (funext fun ax => Fin.ext ?_)
  match ax with
  | ⟨0, _⟩ => rfl
  | ⟨1, _⟩ => rfl

/-! ## Columns -/

variable {α : Type}

/-- An `[a]` array cast to a column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column's entry in row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-! ## Two arrays side by side -/

/-- Two arrays `[R, a]` and `[R, b]` joined along axis 1 into `[R, c]`, at `(r, k)`: the first at `(r, k)` when `k < a`,
    else the second at `(r, k - a)`. -/
theorem concatenate_cols_apply {R a b c : ℕ} (x₁ : (⟨2, ![R, a]⟩ : Shape).Idx → α) (x₂ : (⟨2, ![R, b]⟩ : Shape).Idx → α)
    (h : Shape.Concatenates [⟨2, ![R, a]⟩, ⟨2, ![R, b]⟩] ⟨2, ![R, c]⟩ 1) (hc : c = a + b) (r : Fin R) (k : Fin c) :
    concatenate ⟨2, ![R, c]⟩ 1 [⟨⟨2, ![R, a]⟩, x₁⟩, ⟨⟨2, ![R, b]⟩, x₂⟩] h (ix2 r k)
      = if hk : k.val < a then x₁ (ix2 r ⟨k.val, hk⟩) else x₂ (ix2 r ⟨k.val - a, by omega⟩) := by
  split
  · next hk =>
    refine concatenate_pair_apply_left 1 x₁ x₂ h (ix2 r k) rfl (ix2 r ⟨k.val, hk⟩) fun ax => ?_
    match ax with
    | ⟨0, _⟩ => rfl
    | ⟨1, _⟩ => rfl
  · next hk =>
    refine concatenate_pair_apply_right 1 x₁ x₂ h (ix2 r k) rfl rfl (ix2 r ⟨k.val - a, by omega⟩) (fun ax hne => ?_) ?_
    · match ax with
      | ⟨0, _⟩ => rfl
      | ⟨1, _⟩ => exact absurd rfl hne
    · show k.val - a + a = k.val
      omega

end Cert.RowOps

end
-- ==== Proof.LibHostOps.lean ====
/-
  Host array operations as functions of whole arrays, over the extended reals.

  Each lemma says that a short composition of host operations IS one of the array functions of `Cert.Gcn`:
  * a `dot_general` with plain dimension numbers is the matrix product;
  * an array times a one-axis array broadcast first to a column and then across the columns scales every row by the
    one-axis array's entry for that row, and a one-axis array reshaped to a column is that column;
  * an array plus a one-axis array broadcast first to a row and then down the rows adds that row to every row, and a
    one-axis array reshaped to a row is that row;
  * the maximum with a broadcast scalar constant is the pointwise maximum with the constant's value.
  All are equalities of functions, proved index by index; none needs finite entries.
-/
import proofs.«100964_j88845693485538_1_alg».proof.Proof.GcnOps
import proofs.«100964_j88845693485538_1_alg».proof.Proof.LibRowOps

noncomputable section

namespace Cert.HostOps

open Idealize.ShloMosaic Idealize.ShloMosaic.ValueIdx
open scoped BigOperators

/-! ## The matrix product -/

/-- A host `dot_general` whose dimension record is the plain one (rows × contraction times contraction × columns) is the matrix
    product, whatever the precision and the schedule key. -/
theorem dotGeneral_plain {M K N : ℕ} {φ₁ φ₂ : FTy} (D : DotDims ⟨2, ![M, K]⟩ ⟨2, ![K, N]⟩ ⟨2, ![M, N]⟩) (hD : D = DotDims.plain M K N)
    (prec : Option ContractPrecision) (sched : HostSchedule) (a : FVec Ideal ⟨2, ![M, K]⟩ φ₁) (b : FVec Ideal ⟨2, ![K, N]⟩ φ₂) :
    FloatOps.dotGeneral D prec sched a b = Cert.Gcn.matProd a b := by
  subst hD
  funext i
  obtain ⟨r, c, rfl⟩ : ∃ (r : Fin M) (c : Fin N), i = ix2 r c := ⟨i 0, i 1, eq_ix2 i⟩
  exact (Ideal.dotGeneral_apply (DotDims.plain M K N) prec sched a b (ix2 r c)).trans (Cert.RowOps.plain_sum M K N a b r c)

/-! ## Columns and rows -/

variable {α : Type}

/-- A one-axis array `[a]` broadcast along axis 0 of `[a, 1]` reads, at `(r, u)`, the array at `r`. -/
theorem broadcastInDim_a_a1_apply {a : ℕ} (x : (⟨1, ![a]⟩ : Shape).Idx → α) (h : (⟨1, ![a]⟩ : Shape).BroadcastsInDim ⟨2, ![a, 1]⟩ ![0])
    (r : Fin a) (u : Fin 1) : broadcastInDim ⟨2, ![a, 1]⟩ ![0] h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- A column `[a, 1]` broadcast along both axes of `[a, b]` reads, at `(r, c)`, the column's entry in row `r`. -/
theorem broadcastInDim_a1_ab_apply {a b : ℕ} (v : (⟨2, ![a, 1]⟩ : Shape).Idx → α) (h : (⟨2, ![a, 1]⟩ : Shape).BroadcastsInDim ⟨2, ![a, b]⟩ ![0, 1])
    (r : Fin a) (c : Fin b) : broadcastInDim ⟨2, ![a, b]⟩ ![0, 1] h v (ix2 r c) = v (ix2 r (0 : Fin 1)) := by
  refine broadcastInDim_apply _ h v (ix2 r c) (ix2 r (0 : Fin 1)) fun ax => ?_
  match ax with
  | ⟨0, _⟩ =>
    show r.val = if a = 1 then 0 else r.val
    split
    · have := r.isLt; omega
    · rfl
  | ⟨1, _⟩ => show 0 = if (1 : ℕ) = 1 then 0 else c.val; rw [if_pos rfl]

/-- A one-axis array `[b]` broadcast along axis 1 of `[1, b]` reads, at `(u, c)`, the array at `c`. -/
theorem broadcastInDim_b_1b_apply {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A row `[1, b]` broadcast along both axes of `[a, b]` reads, at `(r, c)`, the row's entry in column `c`. -/
theorem broadcastInDim_1b_ab_apply {a b : ℕ} (v : (⟨2, ![1, b]⟩ : Shape).Idx → α) (h : (⟨2, ![1, b]⟩ : Shape).BroadcastsInDim ⟨2, ![a, b]⟩ ![0, 1])
    (r : Fin a) (c : Fin b) : broadcastInDim ⟨2, ![a, b]⟩ ![0, 1] h v (ix2 r c) = v (ix2 (0 : Fin 1) c) := by
  refine broadcastInDim_apply _ h v (ix2 r c) (ix2 (0 : Fin 1) c) fun ax => ?_
  match ax with
  | ⟨0, _⟩ => show 0 = if (1 : ℕ) = 1 then 0 else r.val; rw [if_pos rfl]
  | ⟨1, _⟩ =>
    show c.val = if b = 1 then 0 else c.val
    split
    · have := c.isLt; omega
    · rfl

/-! ## Scaling rows, adding a row, the maximum with a constant -/

/-- An array times a one-axis array broadcast to a column and then across the columns: every row scaled by its entry. -/
theorem mulf_broadcast_col {E D : ℕ} (hg : FVec Ideal ⟨2, ![E, D]⟩ .f32) (n : FVec Ideal ⟨1, ![E]⟩ .f32)
    (h1 : (⟨1, ![E]⟩ : Shape).BroadcastsInDim ⟨2, ![E, 1]⟩ ![0]) (h2 : (⟨2, ![E, 1]⟩ : Shape).BroadcastsInDim ⟨2, ![E, D]⟩ ![0, 1]) :
    mulf hg (broadcastInDim ⟨2, ![E, D]⟩ ![0, 1] h2 (broadcastInDim ⟨2, ![E, 1]⟩ ![0] h1 n)) = Cert.Gcn.rowScale hg (Cert.Gcn.col n) := by
  funext i
  obtain ⟨e, d, rfl⟩ : ∃ (e : Fin E) (d : Fin D), i = ix2 e d := ⟨i 0, i 1, eq_ix2 i⟩
  show hg (ix2 e d) * broadcastInDim ⟨2, ![E, D]⟩ ![0, 1] h2 (broadcastInDim ⟨2, ![E, 1]⟩ ![0] h1 n) (ix2 e d) = hg (ix2 e d) * n (ix1 e)
  rw [broadcastInDim_a1_ab_apply, broadcastInDim_a_a1_apply]

/-- A one-axis array reshaped to a column is that column. -/
theorem shapeCast_col {E : ℕ} (n : (⟨1, ![E]⟩ : Shape).Idx → EReal) (h : (⟨1, ![E]⟩ : Shape).ShapeCasts ⟨2, ![E, 1]⟩) :
    shapeCast ⟨2, ![E, 1]⟩ n h = Cert.Gcn.col n := by
  funext i
  obtain ⟨e, u, rfl⟩ : ∃ (e : Fin E) (u : Fin 1), i = ix2 e u := ⟨i 0, i 1, eq_ix2 i⟩
  exact Cert.RowOps.shapeCast_a_a1_apply n h e u

/-- An array plus a one-axis array broadcast to a row and then down the rows: that row added to every row. -/
theorem addf_broadcast_row {M D : ℕ} (a : FVec Ideal ⟨2, ![M, D]⟩ .f32) (b : FVec Ideal ⟨1, ![D]⟩ .f32)
    (h1 : (⟨1, ![D]⟩ : Shape).BroadcastsInDim ⟨2, ![1, D]⟩ ![1]) (h2 : (⟨2, ![1, D]⟩ : Shape).BroadcastsInDim ⟨2, ![M, D]⟩ ![0, 1]) :
    addf a (broadcastInDim ⟨2, ![M, D]⟩ ![0, 1] h2 (broadcastInDim ⟨2, ![1, D]⟩ ![1] h1 b)) = Cert.Gcn.addRow a (Cert.Gcn.row b) := by
  funext i
  obtain ⟨r, d, rfl⟩ : ∃ (r : Fin M) (d : Fin D), i = ix2 r d := ⟨i 0, i 1, eq_ix2 i⟩
  show a (ix2 r d) + broadcastInDim ⟨2, ![M, D]⟩ ![0, 1] h2 (broadcastInDim ⟨2, ![1, D]⟩ ![1] h1 b) (ix2 r d) = a (ix2 r d) + b (ix1 d)
  rw [broadcastInDim_1b_ab_apply, broadcastInDim_b_1b_apply]

/-- A one-axis array reshaped to a row is that row. -/
theorem shapeCast_row {D : ℕ} (b : (⟨1, ![D]⟩ : Shape).Idx → EReal) (h : (⟨1, ![D]⟩ : Shape).ShapeCasts ⟨2, ![1, D]⟩) :
    shapeCast ⟨2, ![1, D]⟩ b h = Cert.Gcn.row b := by
  funext i
  obtain ⟨u, d, rfl⟩ : ∃ (u : Fin 1) (d : Fin D), i = ix2 u d := ⟨i 0, i 1, eq_ix2 i⟩
  exact shapeCast_a_1a_apply b h u d

/-- The sum of an array and a broadcast row, then the maximum with a broadcast scalar constant: the row added to every row and the
    larger of that and the constant's value taken. -/
theorem maximumf_addf_broadcast_row {M D : ℕ} (a : FVec Ideal ⟨2, ![M, D]⟩ .f32) (b : FVec Ideal ⟨1, ![D]⟩ .f32) (w : BitVec 32)
    (h1 : (⟨1, ![D]⟩ : Shape).BroadcastsInDim ⟨2, ![1, D]⟩ ![1]) (h2 : (⟨2, ![1, D]⟩ : Shape).BroadcastsInDim ⟨2, ![M, D]⟩ ![0, 1])
    (h0 : (⟨0, ![]⟩ : Shape).BroadcastsInDim ⟨2, ![M, D]⟩ ![]) :
    maximumf (addf a (broadcastInDim ⟨2, ![M, D]⟩ ![0, 1] h2 (broadcastInDim ⟨2, ![1, D]⟩ ![1] h1 b)))
        (broadcastInDim ⟨2, ![M, D]⟩ ![] h0 (constant (F := Ideal) ⟨0, ![]⟩ .f32 w))
      = Cert.Gcn.addRowMax a (Cert.Gcn.row b) (Ideal.ofBits .f32 w) := by
  rw [addf_broadcast_row]
  funext i
  show max (Cert.Gcn.addRow a (Cert.Gcn.row b) i) (broadcastInDim ⟨2, ![M, D]⟩ ![] h0 (constant (F := Ideal) ⟨0, ![]⟩ .f32 w) i) = _
  rw [broadcastInDim_apply _ h0 (constant (F := Ideal) ⟨0, ![]⟩ .f32 w) i ix0 (fun ax => ax.elim0)]
  rfl

end Cert.HostOps

end
-- ==== Proof.Region0.lean ====
/-
  The first layer's projection, as a value: the region multiplies each block of 10000 rows of the node features by the whole
  128 × 64 weight matrix (both operands narrowed first, which changes nothing over the extended reals) and writes the block of
  rows back. So after the region its output array is the matrix product of the two arrays it found at entry: each output row
  depends on the same row of the features and on the whole weight matrix, and the ten blocks of rows cover the array.
-/
import proofs.«100964_j88845693485538_1_alg».proof.Proof.Gen.KernelIdeal.Frame
import proofs.«100964_j88845693485538_1_alg».proof.Proof.GcnOps
import proofs.«100964_j88845693485538_1_alg».proof.Proof.LibRowOps
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

theorem hz0 : (![0, 0] : Fin 2 → Nat) = fun _ => 0 := funext fun a => by fin_cases a <;> rfl

/-- The body's arithmetic at row `r`, column `q` of the block: the product of the block of rows with the whole weight matrix into a
    zero accumulator, the narrowing of both operands being the identity on the extended reals. -/
theorem pay0_apply (x0 : Vec Ideal S10000x128 .f32) (x1 : Vec Ideal S128x64 .f32) (r : Fin 10000) (q : Fin 64) :
    k0_pay1 (F := Ideal) x0 x1 (ix2 r q) = ∑ k : Fin 128, x0 (ix2 r k) * x1 (ix2 k q) := by
  unfold k0_pay1
  exact Cert.RowOps.matmul_plain_apply dot_S10000x128_S128x64_S10000x64_1_0_0_1_n_n rfl none (truncf .bf16 x0 bitsLt_bf16_f32) (truncf .bf16 x1 bitsLt_bf16_f32) r q

/-- The printed index maps over the grid: point `t` takes block `t` of the rows of the input and of the output, and the one
    block that is the whole weight matrix. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `r` of the input block and column `q` of the weight block at point `t`, read off whole arrays `A` and `B`, give the
    product's entry where the output block's entry `(r, q)` sits: row `10000·t + r`, column `q`. -/
theorem blockRead0 (A : S100000x128.Idx → EReal) (B : S128x64.Idx → EReal) (t : Fin cfg0.N) (r : Fin 10000) (q : Fin 64) :
    ∑ k : Fin 128, A (((cfg0.win 0).blk t).view.emb (ix2 r k)) * B (((cfg0.win 1).blk t).view.emb (ix2 k q))
      = Cert.Gcn.matProd A B (((cfg0.win 2).blk t).view.emb (ix2 r q)) := by
  obtain ⟨e0, e1, e2, e3, e4, e5⟩ := idx0 t
  show _ = ∑ k : Fin 128, A (ix2 ((((cfg0.win 2).blk t).view.emb (ix2 r q)) 0) k) * B (ix2 k ((((cfg0.win 2).blk t).view.emb (ix2 r q)) 1))
  refine Finset.sum_congr rfl fun k _ => ?_
  have h0 : ((cfg0.win 0).blk t).view.emb (ix2 r k) = ix2 ((((cfg0.win 2).blk t).view.emb (ix2 r q)) 0) k := by
    funext a; apply Fin.ext
    match a with
    | ⟨0, _⟩ => show win0_0.index t (0 : Fin 2) * 10000 + 1 * r.val = win0_2.index t (0 : Fin 2) * 10000 + 1 * r.val; omega
    | ⟨1, _⟩ => show win0_0.index t (1 : Fin 2) * 128 + 1 * k.val = k.val; omega
  have h1 : ((cfg0.win 1).blk t).view.emb (ix2 k q) = ix2 k ((((cfg0.win 2).blk t).view.emb (ix2 r q)) 1) := by
    funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  rw [h0, h1]
  rfl

/-- What point `t` writes back is block `t` of the whole-array product of the arrays as the region finds them. -/
theorem flushed0 (c : Dev nD) (t : Fin cfg0.N) :
    (dat0 (F := Ideal) V c).flushed 2 t
      = ((cfg0.win 2).blk t).view.read (Elt Ideal) (Cert.Gcn.matProd (V c main_arg0) (V c main_arg3)) := by
  show (cfg0.win 2).cut (grid0.coords t) ((dat0 V c).after 2 t) = _
  rw [after0_2]
  unfold out0_2
  rw [View.canon_unit_zero hz0]
  simp only [View.ld_unit_zero (S := S10000x128) hz0, View.ld_unit_zero (S := S128x64) hz0]
  funext j
  obtain ⟨r, q, rfl⟩ : ∃ (r : Fin 10000) (q : Fin 64), j = ix2 r q := ⟨j 0, j 1, eq_ix2 j⟩
  show k0_pay1 (F := Ideal) (iblk0 V c 0 t) (iblk0 V c 1 t) (ix2 r q) = _
  refine (pay0_apply (iblk0 V c 0 t) (iblk0 V c 1 t) r q).trans ?_
  exact blockRead0 (V c main_arg0) (V c main_arg3) t r q

/-- An index of the output array is in point `t`'s block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v33).slice (win0_2.rect t)).set ↔ _
  rw [View.set_slice_whole, Rect.mem_set_unit]
  exact Iff.rfl

/-- Row `r` of the output lies in the block of point `r / 10000`: the blocks cover the array. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  refine ⟨⟨(i 0).val / 10000, by rw [hN]; omega⟩, flush0_2 _, ?_⟩
  rw [mem_blk0]
  obtain ⟨-, -, -, -, e4, e5⟩ := idx0 ⟨(i 0).val / 10000, by rw [hN]; omega⟩
  intro a
  match a with
  | ⟨0, _⟩ =>
    show win0_2.index _ (0 : Fin 2) * 10000 ≤ (i 0).val ∧ (i 0).val < win0_2.index _ (0 : Fin 2) * 10000 + 10000
    rw [e4]; show (i 0).val / 10000 * 10000 ≤ (i 0).val ∧ (i 0).val < (i 0).val / 10000 * 10000 + 10000; omega
  | ⟨1, _⟩ =>
    show win0_2.index _ (1 : Fin 2) * 64 ≤ (i 1).val ∧ (i 1).val < win0_2.index _ (1 : Fin 2) * 64 + 64
    rw [e5]; omega

/-- After the region its output array holds the whole-array product of the arrays it found at entry. -/
theorem final0 (c : Dev nD) : (dat0 (F := Ideal) V c).arrAt 2 cfg0.N = Cert.Gcn.matProd (V c main_arg0) (V c main_arg3) :=
  (dat0 (F := Ideal) V c).arrAt_eq_of_cover 2 _ (fun t _ => flushed0 V c t) cover0

end Cert.KernelIdeal.RegionValue

end
-- ==== Proof.Region1.lean ====
/-
  The first layer's messages, as a value: the region takes blocks of 20000 gathered rows and the matching block of the
  coefficient column, and multiplies every row by its coefficient. After the region its output array is the gathered array with
  row `e` scaled by entry `e` of the column; the 165 blocks of rows cover the array.
-/
import proofs.«100964_j88845693485538_1_alg».proof.Proof.Gen.KernelIdeal.Frame
import proofs.«100964_j88845693485538_1_alg».proof.Proof.GcnOps
import proofs.«100964_j88845693485538_1_alg».proof.Proof.LibRowOps
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

theorem hz1 : (![0, 0] : Fin 2 → Nat) = fun _ => 0 := funext fun a => by fin_cases a <;> rfl

/-- The body's arithmetic at row `e`, column `d` of the block: the block's entry times the coefficient column's entry `e`. -/
theorem pay1_apply (x0 : Vec Ideal S20000x64 .f32) (x1 : Vec Ideal S20000x1 .f32) (e : Fin 20000) (d : Fin 64) :
    k1_pay1 (F := Ideal) x0 x1 (ix2 e d) = x0 (ix2 e d) * x1 (ix2 e (0 : Fin 1)) := by
  unfold k1_pay1
  show (shapeCast S20000x64 x0 shapeCasts_S20000x64_S20000x64) (ix2 e d) * (broadcastTo S20000x64 (shapeCast S20000x1 x1 shapeCasts_S20000x1_S20000x1) broadcasts_S20000x1_S20000x64) (ix2 e d) = _
  rw [shapeCast_self, shapeCast_self, Cert.RowOps.broadcastTo_a1_ab_apply]

/-- The printed index maps over the grid: point `t` takes block `t` of the rows of both inputs and of the output. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The input block's entry `(e, d)` and the coefficient block's entry `(e, 0)` at point `t`, read off whole arrays `A` and `B`,
    are where the output block's entry `(e, d)` sits: row `20000·t + e`. -/
theorem blockRead1 (A : S3300000x64.Idx → EReal) (B : S3300000x1.Idx → EReal) (t : Fin cfg1.N) (e : Fin 20000) (d : Fin 64) :
    A (((cfg1.win 0).blk t).view.emb (ix2 e d)) * B (((cfg1.win 1).blk t).view.emb (ix2 e (0 : Fin 1)))
      = Cert.Gcn.rowScale A B (((cfg1.win 2).blk t).view.emb (ix2 e d)) := by
  obtain ⟨e0, e1, e2, e3, e4, e5⟩ := idx1 t
  have h0 : ((cfg1.win 0).blk t).view.emb (ix2 e d) = ((cfg1.win 2).blk t).view.emb (ix2 e d) := by
    funext a; apply Fin.ext
    match a with
    | ⟨0, _⟩ => show win1_0.index t (0 : Fin 2) * 20000 + 1 * e.val = win1_2.index t (0 : Fin 2) * 20000 + 1 * e.val; omega
    | ⟨1, _⟩ => show win1_0.index t (1 : Fin 2) * 64 + 1 * d.val = win1_2.index t (1 : Fin 2) * 64 + 1 * d.val; omega
  have h1 : ((cfg1.win 1).blk t).view.emb (ix2 e (0 : Fin 1)) = ix2 ((((cfg1.win 2).blk t).view.emb (ix2 e d)) 0) (0 : Fin 1) := by
    funext a; apply Fin.ext
    match a with
    | ⟨0, _⟩ => show win1_1.index t (0 : Fin 2) * 20000 + 1 * e.val = win1_2.index t (0 : Fin 2) * 20000 + 1 * e.val; omega
    | ⟨1, _⟩ => show win1_1.index t (1 : Fin 2) * 1 + 1 * 0 = 0; omega
  rw [h0, h1]
  rfl

/-- What point `t` writes back is block `t` of the whole-array function of the arrays as the region finds them. -/
theorem flushed1 (c : Dev nD) (t : Fin cfg1.N) :
    (dat1 (F := Ideal) V c).flushed 2 t
      = ((cfg1.win 2).blk t).view.read (Elt Ideal) (Cert.Gcn.rowScale (V c main_v40) (V c main_v41)) := by
  show (cfg1.win 2).cut (grid1.coords t) ((dat1 V c).after 2 t) = _
  rw [after1_2]
  unfold out1_2
  rw [View.canon_unit_zero hz1]
  simp only [View.ld_unit_zero (S := S20000x64) hz1, View.ld_unit_zero (S := S20000x1) hz1]
  funext j
  obtain ⟨e, d, rfl⟩ : ∃ (e : Fin 20000) (d : Fin 64), j = ix2 e d := ⟨j 0, j 1, eq_ix2 j⟩
  show k1_pay1 (F := Ideal) (iblk1 V c 0 t) (iblk1 V c 1 t) (ix2 e d) = _
  refine (pay1_apply (iblk1 V c 0 t) (iblk1 V c 1 t) e d).trans ?_
  exact blockRead1 (V c main_v40) (V c main_v41) t e d

/-- An index of the output array is in point `t`'s block iff each coordinate is in the block's range on its axis. -/
theorem mem_blk1 (t : Fin cfg1.N) (i : S3300000x64.Idx) :
    i ∈ ((cfg1.win 2).blk t).view.set ↔ ∀ a : Fin 2, win1_2.index t a * S20000x64.size a ≤ (i a).val ∧ (i a).val < win1_2.index t a * S20000x64.size a + S20000x64.size a := by
  show i ∈ ((View.whole main_v42).slice (win1_2.rect t)).set ↔ _
  rw [View.set_slice_whole, Rect.mem_set_unit]
  exact Iff.rfl

/-- Row `e` of the output lies in the block of point `e / 20000`: the blocks cover the array. -/
theorem cover1 (i : S3300000x64.Idx) : ∃ t : Fin cfg1.N, (cfg1.win 2).flush t = true ∧ i ∈ ((cfg1.win 2).blk t).view.set := by
  have hi0 : (i 0).val < 3300000 := (i 0).isLt
  have hi1 : (i 1).val < 64 := (i 1).isLt
  have hN : cfg1.N = 165 := N_1
  refine ⟨⟨(i 0).val / 20000, by rw [hN]; omega⟩, flush1_2 _, ?_⟩
  rw [mem_blk1]
  obtain ⟨-, -, -, -, e4, e5⟩ := idx1 ⟨(i 0).val / 20000, by rw [hN]; omega⟩
  intro a
  match a with
  | ⟨0, _⟩ =>
    show win1_2.index _ (0 : Fin 2) * 20000 ≤ (i 0).val ∧ (i 0).val < win1_2.index _ (0 : Fin 2) * 20000 + 20000
    rw [e4]; show (i 0).val / 20000 * 20000 ≤ (i 0).val ∧ (i 0).val < (i 0).val / 20000 * 20000 + 20000; omega
  | ⟨1, _⟩ =>
    show win1_2.index _ (1 : Fin 2) * 64 ≤ (i 1).val ∧ (i 1).val < win1_2.index _ (1 : Fin 2) * 64 + 64
    rw [e5]; omega

/-- After the region its output array holds the whole-array function of the arrays it found at entry. -/
theorem final1 (c : Dev nD) : (dat1 (F := Ideal) V c).arrAt 2 cfg1.N = Cert.Gcn.rowScale (V c main_v40) (V c main_v41) :=
  (dat1 (F := Ideal) V c).arrAt_eq_of_cover 2 _ (fun t _ => flushed1 V c t) cover1

end Cert.KernelIdeal.RegionValue

end
-- ==== Proof.Region2.lean ====
/-
  The first layer's bias and positive part, as a value: the region adds the bias row to every row of a block of 10000
  aggregated rows and takes the larger of each entry and the zero word. After the region its output array is that function of the
  two arrays it found at entry; the ten blocks of rows cover the array.
-/
import proofs.«100964_j88845693485538_1_alg».proof.Proof.Gen.KernelIdeal.Frame
import proofs.«100964_j88845693485538_1_alg».proof.Proof.GcnOps
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

theorem hz2 : (![0, 0] : Fin 2 → Nat) = fun _ => 0 := funext fun a => by fin_cases a <;> rfl

/-- The body's arithmetic at row `r`, column `d` of the block: the block's entry plus the bias row's entry `d`, then the larger of that and the zero word. -/
theorem pay2_apply (x0 : Vec Ideal S10000x64 .f32) (x1 : Vec Ideal S1x64 .f32) (r : Fin 10000) (d : Fin 64) :
    k2_pay1 (F := Ideal) x0 x1 (ix2 r d) = max (x0 (ix2 r d) + x1 (ix2 (0 : Fin 1) d)) (Scalar.ofBits (F := Ideal) .f32 0x00000000#32) := by
  unfold k2_pay1
  show max ((shapeCast S10000x64 x0 shapeCasts_S10000x64_S10000x64) (ix2 r d) + (broadcastTo S10000x64 (shapeCast S1x64 x1 shapeCasts_S1x64_S1x64) broadcasts_S1x64_S10000x64) (ix2 r d)) (Scalar.ofBits (F := Ideal) .f32 0x00000000#32) = _
  rw [shapeCast_self, shapeCast_self, broadcastTo_1b_ab_apply]

/-- The printed index maps over the grid: point `t` takes block `t` of the rows of the input and of the output, and the one
    block of the bias row. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The input block's entry `(r, d)` and the bias block's entry `(0, d)` at point `t`, read off whole arrays `A` and `B`, are
    where the output block's entry `(r, d)` sits: row `10000·t + r`, column `d`. -/
theorem blockRead2 (A : S100000x64.Idx → EReal) (B : S1x64.Idx → EReal) (t : Fin cfg2.N) (r : Fin 10000) (d : Fin 64) :
    max (A (((cfg2.win 0).blk t).view.emb (ix2 r d)) + B (((cfg2.win 1).blk t).view.emb (ix2 (0 : Fin 1) d))) (Scalar.ofBits (F := Ideal) .f32 0x00000000#32)
      = Cert.Gcn.addRowMax A B (Scalar.ofBits (F := Ideal) .f32 0x00000000#32) (((cfg2.win 2).blk t).view.emb (ix2 r d)) := by
  obtain ⟨e0, e1, e2, e3, e4, e5⟩ := idx2 t
  have h0 : ((cfg2.win 0).blk t).view.emb (ix2 r d) = ((cfg2.win 2).blk t).view.emb (ix2 r d) := by
    funext a; apply Fin.ext
    match a with
    | ⟨0, _⟩ => show win2_0.index t (0 : Fin 2) * 10000 + 1 * r.val = win2_2.index t (0 : Fin 2) * 10000 + 1 * r.val; omega
    | ⟨1, _⟩ => show win2_0.index t (1 : Fin 2) * 64 + 1 * d.val = win2_2.index t (1 : Fin 2) * 64 + 1 * d.val; omega
  have h1 : ((cfg2.win 1).blk t).view.emb (ix2 (0 : Fin 1) d) = ix2 (0 : Fin 1) ((((cfg2.win 2).blk t).view.emb (ix2 r d)) 1) := by
    funext a; apply Fin.ext
    match a with
    | ⟨0, _⟩ => show win2_1.index t (0 : Fin 2) * 1 + 1 * 0 = 0; omega
    | ⟨1, _⟩ => show win2_1.index t (1 : Fin 2) * 64 + 1 * d.val = win2_2.index t (1 : Fin 2) * 64 + 1 * d.val; omega
  rw [h0, h1]
  rfl

/-- What point `t` writes back is block `t` of the whole-array function of the arrays as the region finds them. -/
theorem flushed2 (c : Dev nD) (t : Fin cfg2.N) :
    (dat2 (F := Ideal) V c).flushed 2 t
      = ((cfg2.win 2).blk t).view.read (Elt Ideal) (Cert.Gcn.addRowMax (V c main_v45) (V c main_v46) (Scalar.ofBits (F := Ideal) .f32 0x00000000#32)) := by
  show (cfg2.win 2).cut (grid2.coords t) ((dat2 V c).after 2 t) = _
  rw [after2_2]
  unfold out2_2
  rw [View.canon_unit_zero hz2]
  simp only [View.ld_unit_zero (S := S10000x64) hz2, View.ld_unit_zero (S := S1x64) hz2]
  funext j
  obtain ⟨r, d, rfl⟩ : ∃ (r : Fin 10000) (d : Fin 64), j = ix2 r d := ⟨j 0, j 1, eq_ix2 j⟩
  show k2_pay1 (F := Ideal) (iblk2 V c 0 t) (iblk2 V c 1 t) (ix2 r d) = _
  refine (pay2_apply (iblk2 V c 0 t) (iblk2 V c 1 t) r d).trans ?_
  exact blockRead2 (V c main_v45) (V c main_v46) t r d

/-- An index of the output array is in point `t`'s block iff each coordinate is in the block's range on its axis. -/
theorem mem_blk2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v47).slice (win2_2.rect t)).set ↔ _
  rw [View.set_slice_whole, Rect.mem_set_unit]
  exact Iff.rfl

/-- Row `r` of the output lies in the block of point `r / 10000`: the blocks cover the array. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  refine ⟨⟨(i 0).val / 10000, by rw [hN]; omega⟩, flush2_2 _, ?_⟩
  rw [mem_blk2]
  obtain ⟨-, -, -, -, e4, e5⟩ := idx2 ⟨(i 0).val / 10000, by rw [hN]; omega⟩
  intro a
  match a with
  | ⟨0, _⟩ =>
    show win2_2.index _ (0 : Fin 2) * 10000 ≤ (i 0).val ∧ (i 0).val < win2_2.index _ (0 : Fin 2) * 10000 + 10000
    rw [e4]; show (i 0).val / 10000 * 10000 ≤ (i 0).val ∧ (i 0).val < (i 0).val / 10000 * 10000 + 10000; omega
  | ⟨1, _⟩ =>
    show win2_2.index _ (1 : Fin 2) * 64 ≤ (i 1).val ∧ (i 1).val < win2_2.index _ (1 : Fin 2) * 64 + 64
    rw [e5]; omega

/-- After the region its output array holds the whole-array function of the arrays it found at entry. -/
theorem final2 (c : Dev nD) : (dat2 (F := Ideal) V c).arrAt 2 cfg2.N = Cert.Gcn.addRowMax (V c main_v45) (V c main_v46) (Scalar.ofBits (F := Ideal) .f32 0x00000000#32) :=
  (dat2 (F := Ideal) V c).arrAt_eq_of_cover 2 _ (fun t _ => flushed2 V c t) cover2

end Cert.KernelIdeal.RegionValue

end
-- ==== Proof.Region3.lean ====
/-
  The second layer's projection, as a value: the region multiplies each block of 10000 rows of the hidden features (cast to
  their own shape, then narrowed: both the identity here) by the whole 64 × 2 weight matrix. After the region its output array is
  the matrix product of the two arrays it found at entry; the ten blocks of rows cover the array.
-/
import proofs.«100964_j88845693485538_1_alg».proof.Proof.Gen.KernelIdeal.Frame
import proofs.«100964_j88845693485538_1_alg».proof.Proof.GcnOps
import proofs.«100964_j88845693485538_1_alg».proof.Proof.LibRowOps
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

theorem hz3 : (![0, 0] : Fin 2 → Nat) = fun _ => 0 := funext fun a => by fin_cases a <;> rfl

/-- The body's arithmetic at row `r`, column `q` of the block: the product of the block of rows with the whole weight matrix into a
    zero accumulator, the narrowing of both operands being the identity on the extended reals. -/
theorem pay3_apply (x0 : Vec Ideal S10000x64 .f32) (x1 : Vec Ideal S64x2 .f32) (r : Fin 10000) (q : Fin 2) :
    k3_pay1 (F := Ideal) x0 x1 (ix2 r q) = ∑ k : Fin 64, x0 (ix2 r k) * x1 (ix2 k q) := by
  unfold k3_pay1
  show matmul (F := Ideal) dot_S10000x64_S64x2_S10000x2_1_0_0_1_n_n none (truncf (F := Ideal) .bf16 (shapeCast S10000x64 x0 shapeCasts_S10000x64_S10000x64) bitsLt_bf16_f32)
    (truncf (F := Ideal) .bf16 x1 bitsLt_bf16_f32) (constant (F := Ideal) S10000x2 .f32 0x00000000#32) (ix2 r q) = _
  rw [shapeCast_self]
  exact Cert.RowOps.matmul_plain_apply dot_S10000x64_S64x2_S10000x2_1_0_0_1_n_n rfl none (truncf .bf16 x0 bitsLt_bf16_f32) (truncf .bf16 x1 bitsLt_bf16_f32) r q

/-- The printed index maps over the grid: point `t` takes block `t` of the rows of the input and of the output, and the one
    block that is the whole weight matrix. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row `r` of the input block and column `q` of the weight block at point `t`, read off whole arrays `A` and `B`, give the
    product's entry where the output block's entry `(r, q)` sits: row `10000·t + r`, column `q`. -/
theorem blockRead3 (A : S100000x64.Idx → EReal) (B : S64x2.Idx → EReal) (t : Fin cfg3.N) (r : Fin 10000) (q : Fin 2) :
    ∑ k : Fin 64, A (((cfg3.win 0).blk t).view.emb (ix2 r k)) * B (((cfg3.win 1).blk t).view.emb (ix2 k q))
      = Cert.Gcn.matProd A B (((cfg3.win 2).blk t).view.emb (ix2 r q)) := by
  obtain ⟨e0, e1, e2, e3, e4, e5⟩ := idx3 t
  show _ = ∑ k : Fin 64, A (ix2 ((((cfg3.win 2).blk t).view.emb (ix2 r q)) 0) k) * B (ix2 k ((((cfg3.win 2).blk t).view.emb (ix2 r q)) 1))
  refine Finset.sum_congr rfl fun k _ => ?_
  have h0 : ((cfg3.win 0).blk t).view.emb (ix2 r k) = ix2 ((((cfg3.win 2).blk t).view.emb (ix2 r q)) 0) k := by
    funext a; apply Fin.ext
    match a with
    | ⟨0, _⟩ => show win3_0.index t (0 : Fin 2) * 10000 + 1 * r.val = win3_2.index t (0 : Fin 2) * 10000 + 1 * r.val; omega
    | ⟨1, _⟩ => show win3_0.index t (1 : Fin 2) * 64 + 1 * k.val = k.val; omega
  have h1 : ((cfg3.win 1).blk t).view.emb (ix2 k q) = ix2 k ((((cfg3.win 2).blk t).view.emb (ix2 r q)) 1) := by
    funext a; apply Fin.ext
    match a with
    | ⟨0, _⟩ => show win3_1.index t (0 : Fin 2) * 64 + 1 * k.val = k.val; omega
    | ⟨1, _⟩ => show win3_1.index t (1 : Fin 2) * 2 + 1 * q.val = win3_2.index t (1 : Fin 2) * 2 + 1 * q.val; omega
  rw [h0, h1]
  rfl

/-- What point `t` writes back is block `t` of the whole-array product of the arrays as the region finds them. -/
theorem flushed3 (c : Dev nD) (t : Fin cfg3.N) :
    (dat3 (F := Ideal) V c).flushed 2 t
      = ((cfg3.win 2).blk t).view.read (Elt Ideal) (Cert.Gcn.matProd (V c main_v47) (V c main_arg5)) := by
  show (cfg3.win 2).cut (grid3.coords t) ((dat3 V c).after 2 t) = _
  rw [after3_2]
  unfold out3_2
  rw [View.canon_unit_zero hz3]
  simp only [View.ld_unit_zero (S := S10000x64) hz3, View.ld_unit_zero (S := S64x2) hz3]
  funext j
  obtain ⟨r, q, rfl⟩ : ∃ (r : Fin 10000) (q : Fin 2), j = ix2 r q := ⟨j 0, j 1, eq_ix2 j⟩
  show k3_pay1 (F := Ideal) (iblk3 V c 0 t) (iblk3 V c 1 t) (ix2 r q) = _
  refine (pay3_apply (iblk3 V c 0 t) (iblk3 V c 1 t) r q).trans ?_
  exact blockRead3 (V c main_v47) (V c main_arg5) t r q

/-- An index of the output array is in point `t`'s block iff each coordinate is in the block's range on its axis. -/
theorem mem_blk3 (t : Fin cfg3.N) (i : S100000x2.Idx) :
    i ∈ ((cfg3.win 2).blk t).view.set ↔ ∀ a : Fin 2, win3_2.index t a * S10000x2.size a ≤ (i a).val ∧ (i a).val < win3_2.index t a * S10000x2.size a + S10000x2.size a := by
  show i ∈ ((View.whole main_v48).slice (win3_2.rect t)).set ↔ _
  rw [View.set_slice_whole, Rect.mem_set_unit]
  exact Iff.rfl

/-- Row `r` of the output lies in the block of point `r / 10000`: the blocks cover the array. -/
theorem cover3 (i : S100000x2.Idx) : ∃ t : Fin cfg3.N, (cfg3.win 2).flush t = true ∧ i ∈ ((cfg3.win 2).blk t).view.set := by
  have hi0 : (i 0).val < 100000 := (i 0).isLt
  have hi1 : (i 1).val < 2 := (i 1).isLt
  have hN : cfg3.N = 10 := N_3
  refine ⟨⟨(i 0).val / 10000, by rw [hN]; omega⟩, flush3_2 _, ?_⟩
  rw [mem_blk3]
  obtain ⟨-, -, -, -, e4, e5⟩ := idx3 ⟨(i 0).val / 10000, by rw [hN]; omega⟩
  intro a
  match a with
  | ⟨0, _⟩ =>
    show win3_2.index _ (0 : Fin 2) * 10000 ≤ (i 0).val ∧ (i 0).val < win3_2.index _ (0 : Fin 2) * 10000 + 10000
    rw [e4]; show (i 0).val / 10000 * 10000 ≤ (i 0).val ∧ (i 0).val < (i 0).val / 10000 * 10000 + 10000; omega
  | ⟨1, _⟩ =>
    show win3_2.index _ (1 : Fin 2) * 2 ≤ (i 1).val ∧ (i 1).val < win3_2.index _ (1 : Fin 2) * 2 + 2
    rw [e5]; omega

/-- After the region its output array holds the whole-array product of the arrays it found at entry. -/
theorem final3 (c : Dev nD) : (dat3 (F := Ideal) V c).arrAt 2 cfg3.N = Cert.Gcn.matProd (V c main_v47) (V c main_arg5) :=
  (dat3 (F := Ideal) V c).arrAt_eq_of_cover 2 _ (fun t _ => flushed3 V c t) cover3

end Cert.KernelIdeal.RegionValue

end
-- ==== Proof.Region4.lean ====
/-
  The second layer's messages, as a value: the region takes blocks of 20000 gathered rows and the matching block of the
  coefficient column, and multiplies every row by its coefficient. After the region its output array is the gathered array with
  row `e` scaled by entry `e` of the column; the 165 blocks of rows cover the array.
-/
import proofs.«100964_j88845693485538_1_alg».proof.Proof.Gen.KernelIdeal.Frame
import proofs.«100964_j88845693485538_1_alg».proof.Proof.GcnOps
import proofs.«100964_j88845693485538_1_alg».proof.Proof.LibRowOps
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

theorem hz4 : (![0, 0] : Fin 2 → Nat) = fun _ => 0 := funext fun a => by fin_cases a <;> rfl

/-- The body's arithmetic at row `e`, column `d` of the block: the block's entry times the coefficient column's entry `e`. -/
theorem pay4_apply (x0 : Vec Ideal S20000x2 .f32) (x1 : Vec Ideal S20000x1 .f32) (e : Fin 20000) (d : Fin 2) :
    k4_pay1 (F := Ideal) x0 x1 (ix2 e d) = x0 (ix2 e d) * x1 (ix2 e (0 : Fin 1)) := by
  unfold k4_pay1
  show (shapeCast S20000x2 x0 shapeCasts_S20000x2_S20000x2) (ix2 e d) * (broadcastTo S20000x2 (shapeCast S20000x1 x1 shapeCasts_S20000x1_S20000x1) broadcasts_S20000x1_S20000x2) (ix2 e d) = _
  rw [shapeCast_self, shapeCast_self, Cert.RowOps.broadcastTo_a1_ab_apply]

/-- The printed index maps over the grid: point `t` takes block `t` of the rows of both inputs and of the output. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- The input block's entry `(e, d)` and the coefficient block's entry `(e, 0)` at point `t`, read off whole arrays `A` and `B`,
    are where the output block's entry `(e, d)` sits: row `20000·t + e`. -/
theorem blockRead4 (A : S3300000x2.Idx → EReal) (B : S3300000x1.Idx → EReal) (t : Fin cfg4.N) (e : Fin 20000) (d : Fin 2) :
    A (((cfg4.win 0).blk t).view.emb (ix2 e d)) * B (((cfg4.win 1).blk t).view.emb (ix2 e (0 : Fin 1)))
      = Cert.Gcn.rowScale A B (((cfg4.win 2).blk t).view.emb (ix2 e d)) := by
  obtain ⟨e0, e1, e2, e3, e4, e5⟩ := idx4 t
  have h0 : ((cfg4.win 0).blk t).view.emb (ix2 e d) = ((cfg4.win 2).blk t).view.emb (ix2 e d) := by
    funext a; apply Fin.ext
    match a with
    | ⟨0, _⟩ => show win4_0.index t (0 : Fin 2) * 20000 + 1 * e.val = win4_2.index t (0 : Fin 2) * 20000 + 1 * e.val; omega
    | ⟨1, _⟩ => show win4_0.index t (1 : Fin 2) * 2 + 1 * d.val = win4_2.index t (1 : Fin 2) * 2 + 1 * d.val; omega
  have h1 : ((cfg4.win 1).blk t).view.emb (ix2 e (0 : Fin 1)) = ix2 ((((cfg4.win 2).blk t).view.emb (ix2 e d)) 0) (0 : Fin 1) := by
    funext a; apply Fin.ext
    match a with
    | ⟨0, _⟩ => show win4_1.index t (0 : Fin 2) * 20000 + 1 * e.val = win4_2.index t (0 : Fin 2) * 20000 + 1 * e.val; omega
    | ⟨1, _⟩ => show win4_1.index t (1 : Fin 2) * 1 + 1 * 0 = 0; omega
  rw [h0, h1]
  rfl

/-- What point `t` writes back is block `t` of the whole-array function of the arrays as the region finds them. -/
theorem flushed4 (c : Dev nD) (t : Fin cfg4.N) :
    (dat4 (F := Ideal) V c).flushed 2 t
      = ((cfg4.win 2).blk t).view.read (Elt Ideal) (Cert.Gcn.rowScale (V c main_v55) (V c main_v56)) := by
  show (cfg4.win 2).cut (grid4.coords t) ((dat4 V c).after 2 t) = _
  rw [after4_2]
  unfold out4_2
  rw [View.canon_unit_zero hz4]
  simp only [View.ld_unit_zero (S := S20000x2) hz4, View.ld_unit_zero (S := S20000x1) hz4]
  funext j
  obtain ⟨e, d, rfl⟩ : ∃ (e : Fin 20000) (d : Fin 2), j = ix2 e d := ⟨j 0, j 1, eq_ix2 j⟩
  show k4_pay1 (F := Ideal) (iblk4 V c 0 t) (iblk4 V c 1 t) (ix2 e d) = _
  refine (pay4_apply (iblk4 V c 0 t) (iblk4 V c 1 t) e d).trans ?_
  exact blockRead4 (V c main_v55) (V c main_v56) t e d

/-- An index of the output array is in point `t`'s block iff each coordinate is in the block's range on its axis. -/
theorem mem_blk4 (t : Fin cfg4.N) (i : S3300000x2.Idx) :
    i ∈ ((cfg4.win 2).blk t).view.set ↔ ∀ a : Fin 2, win4_2.index t a * S20000x2.size a ≤ (i a).val ∧ (i a).val < win4_2.index t a * S20000x2.size a + S20000x2.size a := by
  show i ∈ ((View.whole main_v57).slice (win4_2.rect t)).set ↔ _
  rw [View.set_slice_whole, Rect.mem_set_unit]
  exact Iff.rfl

/-- Row `e` of the output lies in the block of point `e / 20000`: the blocks cover the array. -/
theorem cover4 (i : S3300000x2.Idx) : ∃ t : Fin cfg4.N, (cfg4.win 2).flush t = true ∧ i ∈ ((cfg4.win 2).blk t).view.set := by
  have hi0 : (i 0).val < 3300000 := (i 0).isLt
  have hi1 : (i 1).val < 2 := (i 1).isLt
  have hN : cfg4.N = 165 := N_4
  refine ⟨⟨(i 0).val / 20000, by rw [hN]; omega⟩, flush4_2 _, ?_⟩
  rw [mem_blk4]
  obtain ⟨-, -, -, -, e4, e5⟩ := idx4 ⟨(i 0).val / 20000, by rw [hN]; omega⟩
  intro a
  match a with
  | ⟨0, _⟩ =>
    show win4_2.index _ (0 : Fin 2) * 20000 ≤ (i 0).val ∧ (i 0).val < win4_2.index _ (0 : Fin 2) * 20000 + 20000
    rw [e4]; show (i 0).val / 20000 * 20000 ≤ (i 0).val ∧ (i 0).val < (i 0).val / 20000 * 20000 + 20000; omega
  | ⟨1, _⟩ =>
    show win4_2.index _ (1 : Fin 2) * 2 ≤ (i 1).val ∧ (i 1).val < win4_2.index _ (1 : Fin 2) * 2 + 2
    rw [e5]; omega

/-- After the region its output array holds the whole-array function of the arrays it found at entry. -/
theorem final4 (c : Dev nD) : (dat4 (F := Ideal) V c).arrAt 2 cfg4.N = Cert.Gcn.rowScale (V c main_v55) (V c main_v56) :=
  (dat4 (F := Ideal) V c).arrAt_eq_of_cover 2 _ (fun t _ => flushed4 V c t) cover4

end Cert.KernelIdeal.RegionValue

end
-- ==== Proof.Region5.lean ====
/-
  The second layer's bias, as a value: the region adds the bias row to every row of a block of 10000 aggregated rows. After the
  region its output array is the aggregated array with the bias row added to every row; the ten blocks of rows cover the array.
-/
import proofs.«100964_j88845693485538_1_alg».proof.Proof.Gen.KernelIdeal.Frame
import proofs.«100964_j88845693485538_1_alg».proof.Proof.GcnOps
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

theorem hz5 : (![0, 0] : Fin 2 → Nat) = fun _ => 0 := funext fun a => by fin_cases a <;> rfl

/-- The body's arithmetic at row `r`, column `d` of the block: the block's entry plus the bias row's entry `d`. -/
theorem pay5_apply (x0 : Vec Ideal S10000x2 .f32) (x1 : Vec Ideal S1x2 .f32) (r : Fin 10000) (d : Fin 2) :
    k5_pay1 (F := Ideal) x0 x1 (ix2 r d) = x0 (ix2 r d) + x1 (ix2 (0 : Fin 1) d) := by
  unfold k5_pay1
  show (shapeCast S10000x2 x0 shapeCasts_S10000x2_S10000x2) (ix2 r d) + (broadcastTo S10000x2 (shapeCast S1x2 x1 shapeCasts_S1x2_S1x2) broadcasts_S1x2_S10000x2) (ix2 r d) = _
  rw [shapeCast_self, shapeCast_self, broadcastTo_1b_ab_apply]

/-- The printed index maps over the grid: point `t` takes block `t` of the rows of the input and of the output, and the one
    block of the bias row. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The input block's entry `(r, d)` and the bias block's entry `(0, d)` at point `t`, read off whole arrays `A` and `B`, are
    where the output block's entry `(r, d)` sits: row `10000·t + r`, column `d`. -/
theorem blockRead5 (A : S100000x2.Idx → EReal) (B : S1x2.Idx → EReal) (t : Fin cfg5.N) (r : Fin 10000) (d : Fin 2) :
    A (((cfg5.win 0).blk t).view.emb (ix2 r d)) + B (((cfg5.win 1).blk t).view.emb (ix2 (0 : Fin 1) d))
      = Cert.Gcn.addRow A B (((cfg5.win 2).blk t).view.emb (ix2 r d)) := by
  obtain ⟨e0, e1, e2, e3, e4, e5⟩ := idx5 t
  have h0 : ((cfg5.win 0).blk t).view.emb (ix2 r d) = ((cfg5.win 2).blk t).view.emb (ix2 r d) := by
    funext a; apply Fin.ext
    match a with
    | ⟨0, _⟩ => show win5_0.index t (0 : Fin 2) * 10000 + 1 * r.val = win5_2.index t (0 : Fin 2) * 10000 + 1 * r.val; omega
    | ⟨1, _⟩ => show win5_0.index t (1 : Fin 2) * 2 + 1 * d.val = win5_2.index t (1 : Fin 2) * 2 + 1 * d.val; omega
  have h1 : ((cfg5.win 1).blk t).view.emb (ix2 (0 : Fin 1) d) = ix2 (0 : Fin 1) ((((cfg5.win 2).blk t).view.emb (ix2 r d)) 1) := by
    funext a; apply Fin.ext
    match a with
    | ⟨0, _⟩ => show win5_1.index t (0 : Fin 2) * 1 + 1 * 0 = 0; omega
    | ⟨1, _⟩ => show win5_1.index t (1 : Fin 2) * 2 + 1 * d.val = win5_2.index t (1 : Fin 2) * 2 + 1 * d.val; omega
  rw [h0, h1]
  rfl

/-- What point `t` writes back is block `t` of the whole-array function of the arrays as the region finds them. -/
theorem flushed5 (c : Dev nD) (t : Fin cfg5.N) :
    (dat5 (F := Ideal) V c).flushed 2 t
      = ((cfg5.win 2).blk t).view.read (Elt Ideal) (Cert.Gcn.addRow (V c main_v60) (V c main_v61)) := by
  show (cfg5.win 2).cut (grid5.coords t) ((dat5 V c).after 2 t) = _
  rw [after5_2]
  unfold out5_2
  rw [View.canon_unit_zero hz5]
  simp only [View.ld_unit_zero (S := S10000x2) hz5, View.ld_unit_zero (S := S1x2) hz5]
  funext j
  obtain ⟨r, d, rfl⟩ : ∃ (r : Fin 10000) (d : Fin 2), j = ix2 r d := ⟨j 0, j 1, eq_ix2 j⟩
  show k5_pay1 (F := Ideal) (iblk5 V c 0 t) (iblk5 V c 1 t) (ix2 r d) = _
  refine (pay5_apply (iblk5 V c 0 t) (iblk5 V c 1 t) r d).trans ?_
  exact blockRead5 (V c main_v60) (V c main_v61) t r d

/-- An index of the output array is in point `t`'s block iff each coordinate is in the block's range on its axis. -/
theorem mem_blk5 (t : Fin cfg5.N) (i : S100000x2.Idx) :
    i ∈ ((cfg5.win 2).blk t).view.set ↔ ∀ a : Fin 2, win5_2.index t a * S10000x2.size a ≤ (i a).val ∧ (i a).val < win5_2.index t a * S10000x2.size a + S10000x2.size a := by
  show i ∈ ((View.whole main_v62).slice (win5_2.rect t)).set ↔ _
  rw [View.set_slice_whole, Rect.mem_set_unit]
  exact Iff.rfl

/-- Row `r` of the output lies in the block of point `r / 10000`: the blocks cover the array. -/
theorem cover5 (i : S100000x2.Idx) : ∃ t : Fin cfg5.N, (cfg5.win 2).flush t = true ∧ i ∈ ((cfg5.win 2).blk t).view.set := by
  have hi0 : (i 0).val < 100000 := (i 0).isLt
  have hi1 : (i 1).val < 2 := (i 1).isLt
  have hN : cfg5.N = 10 := N_5
  refine ⟨⟨(i 0).val / 10000, by rw [hN]; omega⟩, flush5_2 _, ?_⟩
  rw [mem_blk5]
  obtain ⟨-, -, -, -, e4, e5⟩ := idx5 ⟨(i 0).val / 10000, by rw [hN]; omega⟩
  intro a
  match a with
  | ⟨0, _⟩ =>
    show win5_2.index _ (0 : Fin 2) * 10000 ≤ (i 0).val ∧ (i 0).val < win5_2.index _ (0 : Fin 2) * 10000 + 10000
    rw [e4]; show (i 0).val / 10000 * 10000 ≤ (i 0).val ∧ (i 0).val < (i 0).val / 10000 * 10000 + 10000; omega
  | ⟨1, _⟩ =>
    show win5_2.index _ (1 : Fin 2) * 2 ≤ (i 1).val ∧ (i 1).val < win5_2.index _ (1 : Fin 2) * 2 + 2
    rw [e5]; omega

/-- After the region its output array holds the whole-array function of the arrays it found at entry. -/
theorem final5 (c : Dev nD) : (dat5 (F := Ideal) V c).arrAt 2 cfg5.N = Cert.Gcn.addRow (V c main_v60) (V c main_v61) :=
  (dat5 (F := Ideal) V c).arrAt_eq_of_cover 2 _ (fun t _ => flushed5 V c t) cover5

end Cert.KernelIdeal.RegionValue

end
-- ==== Proof.Chain.lean ====
/-
  The kernel program's result, followed through its run.

  The run's buffer contents are known at every boundary between a stretch of host operations and a region. Going forward from the
  launch: the first three stretches compute the edge endpoints, the padded weights and the coefficient; each region leaves in its
  output array the whole-array function of what it found at entry (the region modules) and touches nothing else; each later
  stretch gathers, reshapes or scatter-adds. What later segments still read (endpoints, coefficient, the second layer's weights and
  both biases) is carried along unchanged. At the last boundary the result buffer holds the specification of the launch arrays.
-/
import proofs.«100964_j88845693485538_1_alg».proof.Proof.Gen.KernelIdeal.Frame
import proofs.«100964_j88845693485538_1_alg».proof.Proof.Spec
import proofs.«100964_j88845693485538_1_alg».proof.Proof.LibHostOps
import proofs.«100964_j88845693485538_1_alg».proof.Proof.Region0
import proofs.«100964_j88845693485538_1_alg».proof.Proof.Region1
import proofs.«100964_j88845693485538_1_alg».proof.Proof.Region2
import proofs.«100964_j88845693485538_1_alg».proof.Proof.Region3
import proofs.«100964_j88845693485538_1_alg».proof.Proof.Region4
import proofs.«100964_j88845693485538_1_alg».proof.Proof.Region5
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.ShloMosaic.StableHlo Idealize.SL.Sem

/-! ## The host stretches, from any contents `W` -/

section Stretches
variable (W : Valuation τ sig (Elt Ideal))

/-- The first stretch: the endpoints with the self-loops, and the weights with their ones. -/
theorem s0_v3 : StableHlo.after (hostOps0 (F := Ideal)) W (Proc.devRef .tc main_v3) = Cert.Spec.endpoints0 (W (Proc.devRef .tc main_arg1)) := by
  dsimp only [hostOps0]
  after_results <;> rfl

theorem s0_v7 : StableHlo.after (hostOps0 (F := Ideal)) W (Proc.devRef .tc main_v7) = Cert.Spec.endpoints1 (W (Proc.devRef .tc main_arg1)) := by
  dsimp only [hostOps0]
  after_results <;> rfl

theorem s0_v9 : StableHlo.after (hostOps0 (F := Ideal)) W (Proc.devRef .tc main_v9) = Cert.Spec.ewf (W (Proc.devRef .tc main_arg2)) := by
  dsimp only [hostOps0]
  after_results <;> rfl

/-- The first stretch also compares the weighted in-degree with zero, takes its inverse square root, and sets a zero aside. -/
theorem s0_v14 : StableHlo.after (hostOps0 (F := Ideal)) W (Proc.devRef .tc main_v14)
    = cmpf .ogt (Cert.Spec.degOf (Cert.Spec.endpoints1 (W (Proc.devRef .tc main_arg1))) (Cert.Spec.ewf (W (Proc.devRef .tc main_arg2))))
        (broadcastInDim S100000 ![] bcast_S_S100000 (constant (F := Ideal) S_ .f32 0x00000000#32)) := by
  dsimp only [hostOps0]
  after_results <;> rfl

theorem s0_v15 : StableHlo.after (hostOps0 (F := Ideal)) W (Proc.devRef .tc main_v15)
    = Host.rsqrt (F := Ideal) (φ := .f32) (Cert.Spec.degOf (Cert.Spec.endpoints1 (W (Proc.devRef .tc main_arg1))) (Cert.Spec.ewf (W (Proc.devRef .tc main_arg2)))) := by
  dsimp only [hostOps0]
  after_results <;> rfl

theorem s0_cst2 : StableHlo.after (hostOps0 (F := Ideal)) W (Proc.devRef .tc main_cst_2) = constant (F := Ideal) S_ .f32 0x00000000#32 := by
  dsimp only [hostOps0]
  after_results <;> rfl

/-- The second stretch selects between them. -/
theorem s1_v16 : StableHlo.after (hostOps0_1 (F := Ideal)) W (Proc.devRef .tc main_v16)
    = select (W (Proc.devRef .tc main_v14)) (W (Proc.devRef .tc main_v15)) (broadcastInDim S100000 ![] bcast_S_S100000 (id (W (Proc.devRef .tc main_cst_2)))) := by
  dsimp only [hostOps0_1]
  after_results <;> rfl

/-- That selection, of a degree array `d`, is the specification's inverse square root where positive and zero elsewhere. -/
theorem dinv_of (d : FVec Ideal S100000 .f32) :
    select (cmpf .ogt d (broadcastInDim S100000 ![] bcast_S_S100000 (constant (F := Ideal) S_ .f32 0x00000000#32)))
        (Host.rsqrt (F := Ideal) (φ := .f32) d) (broadcastInDim S100000 ![] bcast_S_S100000 (id (constant (F := Ideal) S_ .f32 0x00000000#32)))
      = Cert.Spec.dinvOf d := rfl

/-- The second stretch writes nothing the third reads but that. -/
theorem kept01 : StableHlo.after (hostOps0_1 (F := Ideal)) W (Proc.devRef .tc main_v3) = W (Proc.devRef .tc main_v3)
    ∧ StableHlo.after (hostOps0_1 (F := Ideal)) W (Proc.devRef .tc main_v7) = W (Proc.devRef .tc main_v7)
    ∧ StableHlo.after (hostOps0_1 (F := Ideal)) W (Proc.devRef .tc main_v9) = W (Proc.devRef .tc main_v9) := by
  dsimp only [hostOps0_1]
  refine ⟨?_, ?_, ?_⟩ <;> after_results

set_option maxHeartbeats 8000000 in
/-- The third stretch: the coefficient `dinv[src] · w · dinv[dst]` of what it finds. -/
theorem s02_v32 : StableHlo.after (hostOps0_2 (F := Ideal)) W (Proc.devRef .tc main_v32)
    = Cert.Spec.normOf (W (Proc.devRef .tc main_v16)) (W (Proc.devRef .tc main_v3)) (W (Proc.devRef .tc main_v7)) (W (Proc.devRef .tc main_v9)) := by
  dsimp only [hostOps0_2]
  after_results_simp <;> rfl

theorem kept02 : StableHlo.after (hostOps0_2 (F := Ideal)) W (Proc.devRef .tc main_v3) = W (Proc.devRef .tc main_v3)
    ∧ StableHlo.after (hostOps0_2 (F := Ideal)) W (Proc.devRef .tc main_v7) = W (Proc.devRef .tc main_v7) := by
  dsimp only [hostOps0_2]
  refine ⟨?_, ?_⟩ <;> after_results

/-- The first three stretches write none of the float arguments. -/
theorem kept_args (b : Ref sig .tc) (hb : b = main_arg0 ∨ b = main_arg3 ∨ b = main_arg4 ∨ b = main_arg5 ∨ b = main_arg6) :
    StableHlo.after (hostOps0_2 (F := Ideal)) (StableHlo.after (hostOps0_1 (F := Ideal)) (StableHlo.after (hostOps0 (F := Ideal)) W)) (Proc.devRef .tc b)
      = W (Proc.devRef .tc b) := by
  dsimp only [hostOps0_2, hostOps0_1, hostOps0]
  rcases hb with rfl | rfl | rfl | rfl | rfl <;> after_results

/-- Between the first projection and the first scaling: the projected rows gathered by source node, the coefficient as a column. -/
theorem s1_v40 : StableHlo.after (hostOps1 (F := Ideal)) W (Proc.devRef .tc main_v40) = Cert.Spec.gather64 (W (Proc.devRef .tc main_v33)) (W (Proc.devRef .tc main_v3)) := by
  dsimp only [hostOps1]
  after_results <;> rfl

theorem s1_v41 : StableHlo.after (hostOps1 (F := Ideal)) W (Proc.devRef .tc main_v41) = Cert.Gcn.col (W (Proc.devRef .tc main_v32)) := by
  dsimp only [hostOps1]
  after_results
  exact Cert.HostOps.shapeCast_col _ _

/-- Between the first scaling and the first bias: the messages summed into their destination nodes, the bias as a row. -/
theorem s2_v45 : StableHlo.after (hostOps2 (F := Ideal)) W (Proc.devRef .tc main_v45) = Cert.Spec.scatter64 (W (Proc.devRef .tc main_v7)) (W (Proc.devRef .tc main_v42)) := by
  dsimp only [hostOps2]
  after_results <;> rfl

theorem s2_v46 : StableHlo.after (hostOps2 (F := Ideal)) W (Proc.devRef .tc main_v46) = Cert.Gcn.row (W (Proc.devRef .tc main_arg4)) := by
  dsimp only [hostOps2]
  after_results
  exact Cert.HostOps.shapeCast_row _ _

/-- Between the second projection and the second scaling. -/
theorem s4_v55 : StableHlo.after (hostOps4 (F := Ideal)) W (Proc.devRef .tc main_v55) = Cert.Spec.gather2 (W (Proc.devRef .tc main_v48)) (W (Proc.devRef .tc main_v3)) := by
  dsimp only [hostOps4]
  after_results <;> rfl

theorem s4_v56 : StableHlo.after (hostOps4 (F := Ideal)) W (Proc.devRef .tc main_v56) = Cert.Gcn.col (W (Proc.devRef .tc main_v32)) := by
  dsimp only [hostOps4]
  after_results
  exact Cert.HostOps.shapeCast_col _ _

/-- Between the second scaling and the second bias. -/
theorem s5_v60 : StableHlo.after (hostOps5 (F := Ideal)) W (Proc.devRef .tc main_v60) = Cert.Spec.scatter2 (W (Proc.devRef .tc main_v7)) (W (Proc.devRef .tc main_v57)) := by
  dsimp only [hostOps5]
  after_results <;> rfl

theorem s5_v61 : StableHlo.after (hostOps5 (F := Ideal)) W (Proc.devRef .tc main_v61) = Cert.Gcn.row (W (Proc.devRef .tc main_arg6)) := by
  dsimp only [hostOps5]
  after_results
  exact Cert.HostOps.shapeCast_row _ _

/-- None of the later stretches writes the endpoints, the coefficient, the second weight matrix or a bias. -/
theorem kept_later (b : Ref sig .tc) (hb : b = main_v3 ∨ b = main_v7 ∨ b = main_v32 ∨ b = main_arg4 ∨ b = main_arg5 ∨ b = main_arg6) :
    StableHlo.after (hostOps1 (F := Ideal)) W (Proc.devRef .tc b) = W (Proc.devRef .tc b)
    ∧ StableHlo.after (hostOps2 (F := Ideal)) W (Proc.devRef .tc b) = W (Proc.devRef .tc b)
    ∧ StableHlo.after (hostOps4 (F := Ideal)) W (Proc.devRef .tc b) = W (Proc.devRef .tc b)
    ∧ StableHlo.after (hostOps5 (F := Ideal)) W (Proc.devRef .tc b) = W (Proc.devRef .tc b) := by
  dsimp only [hostOps1, hostOps2, hostOps4, hostOps5]
  rcases hb with rfl | rfl | rfl | rfl | rfl | rfl <;> refine ⟨?_, ?_, ?_, ?_⟩ <;> after_results

end Stretches

/-! ## The run's boundaries -/

variable (m : (ℓ : Loc nD τ sig) → Buf (Elt Ideal) ℓ) (ρ : Dev nD → PrngReg) (c : Dev nD)

/-- What later segments still read, at a boundary's contents `W`: the endpoints, the coefficient, the second layer's weights and
    the two biases, each at its value from the launch arrays. -/
structure Carried (W : Valuation τ sig (Elt Ideal)) : Prop where
  src : W (Proc.devRef .tc main_v3) = Cert.Spec.endpoints0 (m ((c : Thread nD τ).loc main_arg1))
  dst : W (Proc.devRef .tc main_v7) = Cert.Spec.endpoints1 (m ((c : Thread nD τ).loc main_arg1))
  nrm : W (Proc.devRef .tc main_v32) = Cert.Spec.norm (m ((c : Thread nD τ).loc main_arg1)) (m ((c : Thread nD τ).loc main_arg2))
  b1 : W (Proc.devRef .tc main_arg4) = (m ((c : Thread nD τ).loc main_arg4))
  w2 : W (Proc.devRef .tc main_arg5) = (m ((c : Thread nD τ).loc main_arg5))
  b2 : W (Proc.devRef .tc main_arg6) = (m ((c : Thread nD τ).loc main_arg6))

/-- A later stretch carries them. -/
theorem Carried.host {W : Valuation τ sig (Elt Ideal)} (h : Carried m c W) :
    Carried m c (StableHlo.after (hostOps1 (F := Ideal)) W) ∧ Carried m c (StableHlo.after (hostOps2 (F := Ideal)) W)
    ∧ Carried m c (StableHlo.after (hostOps4 (F := Ideal)) W) ∧ Carried m c (StableHlo.after (hostOps5 (F := Ideal)) W) :=
  ⟨⟨(kept_later W main_v3 (.inl rfl)).1.trans h.src, (kept_later W main_v7 (.inr (.inl rfl))).1.trans h.dst,
      (kept_later W main_v32 (.inr (.inr (.inl rfl)))).1.trans h.nrm, (kept_later W main_arg4 (.inr (.inr (.inr (.inl rfl))))).1.trans h.b1,
      (kept_later W main_arg5 (.inr (.inr (.inr (.inr (.inl rfl)))))).1.trans h.w2, (kept_later W main_arg6 (.inr (.inr (.inr (.inr (.inr rfl)))))).1.trans h.b2⟩,
    ⟨(kept_later W main_v3 (.inl rfl)).2.1.trans h.src, (kept_later W main_v7 (.inr (.inl rfl))).2.1.trans h.dst,
      (kept_later W main_v32 (.inr (.inr (.inl rfl)))).2.1.trans h.nrm, (kept_later W main_arg4 (.inr (.inr (.inr (.inl rfl))))).2.1.trans h.b1,
      (kept_later W main_arg5 (.inr (.inr (.inr (.inr (.inl rfl)))))).2.1.trans h.w2, (kept_later W main_arg6 (.inr (.inr (.inr (.inr (.inr rfl)))))).2.1.trans h.b2⟩,
    ⟨(kept_later W main_v3 (.inl rfl)).2.2.1.trans h.src, (kept_later W main_v7 (.inr (.inl rfl))).2.2.1.trans h.dst,
      (kept_later W main_v32 (.inr (.inr (.inl rfl)))).2.2.1.trans h.nrm, (kept_later W main_arg4 (.inr (.inr (.inr (.inl rfl))))).2.2.1.trans h.b1,
      (kept_later W main_arg5 (.inr (.inr (.inr (.inr (.inl rfl)))))).2.2.1.trans h.w2, (kept_later W main_arg6 (.inr (.inr (.inr (.inr (.inr rfl)))))).2.2.1.trans h.b2⟩,
    ⟨(kept_later W main_v3 (.inl rfl)).2.2.2.trans h.src, (kept_later W main_v7 (.inr (.inl rfl))).2.2.2.trans h.dst,
      (kept_later W main_v32 (.inr (.inr (.inl rfl)))).2.2.2.trans h.nrm, (kept_later W main_arg4 (.inr (.inr (.inr (.inl rfl))))).2.2.2.trans h.b1,
      (kept_later W main_arg5 (.inr (.inr (.inr (.inr (.inl rfl)))))).2.2.2.trans h.w2, (kept_later W main_arg6 (.inr (.inr (.inr (.inr (.inr rfl)))))).2.2.2.trans h.b2⟩⟩

/-! ### Region 0's entry and exit -/

/-- At the first region's entry the endpoints and the coefficient have been computed and the arguments are as launched. -/
theorem carried3 : Carried m c (W3 m ρ c) where
  src := (kept02 (W2 m ρ c)).1.trans ((kept01 (W1 m ρ c)).1.trans (s0_v3 (W0 m ρ c)))
  dst := (kept02 (W2 m ρ c)).2.trans ((kept01 (W1 m ρ c)).2.1.trans (s0_v7 (W0 m ρ c)))
  nrm := by
    have h16 : W2 m ρ c (Proc.devRef .tc main_v16)
        = Cert.Spec.dinvOf (Cert.Spec.degOf (Cert.Spec.endpoints1 (W0 m ρ c (Proc.devRef .tc main_arg1))) (Cert.Spec.ewf (W0 m ρ c (Proc.devRef .tc main_arg2)))) := by
      have h14 : W1 m ρ c (Proc.devRef .tc main_v14) = _ := s0_v14 (W0 m ρ c)
      have h15 : W1 m ρ c (Proc.devRef .tc main_v15) = _ := s0_v15 (W0 m ρ c)
      have hc : W1 m ρ c (Proc.devRef .tc main_cst_2) = _ := s0_cst2 (W0 m ρ c)
      refine (s1_v16 (W1 m ρ c)).trans ?_
      rw [h14, h15, hc]
      exact dinv_of _
    have h3 : W2 m ρ c (Proc.devRef .tc main_v3) = _ := (kept01 (W1 m ρ c)).1.trans (s0_v3 (W0 m ρ c))
    have h7 : W2 m ρ c (Proc.devRef .tc main_v7) = _ := (kept01 (W1 m ρ c)).2.1.trans (s0_v7 (W0 m ρ c))
    have h9 : W2 m ρ c (Proc.devRef .tc main_v9) = _ := (kept01 (W1 m ρ c)).2.2.trans (s0_v9 (W0 m ρ c))
    refine (s02_v32 (W2 m ρ c)).trans ?_
    rw [h16, h3, h7, h9]
    rfl
  b1 := kept_args (W0 m ρ c) main_arg4 (.inr (.inr (.inl rfl)))
  w2 := kept_args (W0 m ρ c) main_arg5 (.inr (.inr (.inr (.inl rfl))))
  b2 := kept_args (W0 m ρ c) main_arg6 (.inr (.inr (.inr (.inr rfl))))

theorem x3 : V3 m ρ c main_arg0 = (m ((c : Thread nD τ).loc main_arg0)) := kept_args (W0 m ρ c) main_arg0 (.inl rfl)
theorem w13 : V3 m ρ c main_arg3 = (m ((c : Thread nD τ).loc main_arg3)) := kept_args (W0 m ρ c) main_arg3 (.inr (.inl rfl))

/-- After the first region: the projected features. -/
theorem v33_4 : W4 m ρ c (Proc.devRef .tc main_v33) = Cert.Gcn.matProd (m ((c : Thread nD τ).loc main_arg0)) (m ((c : Thread nD τ).loc main_arg3)) := by
  refine (W4_arr m ρ c 2).trans ((Cert.KernelIdeal.RegionValue.final0 (V3 m ρ) c).trans ?_)
  rw [x3, w13]

theorem carried4 : Carried m c (W4 m ρ c) :=
  have h := carried3 m ρ c
  ⟨(W4_of_ne m ρ c main_v3 (by decide)).trans h.src, (W4_of_ne m ρ c main_v7 (by decide)).trans h.dst, (W4_of_ne m ρ c main_v32 (by decide)).trans h.nrm,
    (W4_of_ne m ρ c main_arg4 (by decide)).trans h.b1, (W4_of_ne m ρ c main_arg5 (by decide)).trans h.w2, (W4_of_ne m ρ c main_arg6 (by decide)).trans h.b2⟩

/-! ### Region 1 -/

theorem carried5 : Carried m c (W5 m ρ c) := (carried4 m ρ c).host.1

theorem v40_5 : V5 m ρ c main_v40 = Cert.Spec.gather64 (Cert.Gcn.matProd (m ((c : Thread nD τ).loc main_arg0)) (m ((c : Thread nD τ).loc main_arg3))) (Cert.Spec.endpoints0 (m ((c : Thread nD τ).loc main_arg1))) := by
  refine (s1_v40 (W4 m ρ c)).trans ?_
  rw [v33_4, (carried4 m ρ c).src]

theorem v41_5 : V5 m ρ c main_v41 = Cert.Gcn.col (Cert.Spec.norm (m ((c : Thread nD τ).loc main_arg1)) (m ((c : Thread nD τ).loc main_arg2))) := by
  refine (s1_v41 (W4 m ρ c)).trans ?_
  rw [(carried4 m ρ c).nrm]

/-- After the second region: the first layer's messages. -/
theorem v42_6 : W6 m ρ c (Proc.devRef .tc main_v42)
    = Cert.Gcn.rowScale (Cert.Spec.gather64 (Cert.Gcn.matProd (m ((c : Thread nD τ).loc main_arg0)) (m ((c : Thread nD τ).loc main_arg3))) (Cert.Spec.endpoints0 (m ((c : Thread nD τ).loc main_arg1))))
        (Cert.Gcn.col (Cert.Spec.norm (m ((c : Thread nD τ).loc main_arg1)) (m ((c : Thread nD τ).loc main_arg2)))) := by
  refine (W6_arr m ρ c 2).trans ((Cert.KernelIdeal.RegionValue.final1 (V5 m ρ) c).trans ?_)
  rw [v40_5, v41_5]

theorem carried6 : Carried m c (W6 m ρ c) :=
  have h := carried5 m ρ c
  ⟨(W6_of_ne m ρ c main_v3 (by decide)).trans h.src, (W6_of_ne m ρ c main_v7 (by decide)).trans h.dst, (W6_of_ne m ρ c main_v32 (by decide)).trans h.nrm,
    (W6_of_ne m ρ c main_arg4 (by decide)).trans h.b1, (W6_of_ne m ρ c main_arg5 (by decide)).trans h.w2, (W6_of_ne m ρ c main_arg6 (by decide)).trans h.b2⟩

/-! ### Region 2 -/

theorem carried7 : Carried m c (W7 m ρ c) := (carried6 m ρ c).host.2.1

theorem v45_7 : V7 m ρ c main_v45 = Cert.Spec.scatter64 (Cert.Spec.endpoints1 (m ((c : Thread nD τ).loc main_arg1)))
    (Cert.Gcn.rowScale (Cert.Spec.gather64 (Cert.Gcn.matProd (m ((c : Thread nD τ).loc main_arg0)) (m ((c : Thread nD τ).loc main_arg3))) (Cert.Spec.endpoints0 (m ((c : Thread nD τ).loc main_arg1))))
      (Cert.Gcn.col (Cert.Spec.norm (m ((c : Thread nD τ).loc main_arg1)) (m ((c : Thread nD τ).loc main_arg2))))) := by
  refine (s2_v45 (W6 m ρ c)).trans ?_
  rw [v42_6, (carried6 m ρ c).dst]

theorem v46_7 : V7 m ρ c main_v46 = Cert.Gcn.row (m ((c : Thread nD τ).loc main_arg4)) := by
  refine (s2_v46 (W6 m ρ c)).trans ?_
  rw [(carried6 m ρ c).b1]

/-- After the third region: the hidden features. -/
theorem v47_8 : W8 m ρ c (Proc.devRef .tc main_v47)
    = Cert.Spec.hidden (m ((c : Thread nD τ).loc main_arg0)) (m ((c : Thread nD τ).loc main_arg1)) (m ((c : Thread nD τ).loc main_arg2)) (m ((c : Thread nD τ).loc main_arg3)) (m ((c : Thread nD τ).loc main_arg4)) := by
  refine (W8_arr m ρ c 2).trans ((Cert.KernelIdeal.RegionValue.final2 (V7 m ρ) c).trans ?_)
  rw [v45_7, v46_7]
  rfl

theorem carried8 : Carried m c (W8 m ρ c) :=
  have h := carried7 m ρ c
  ⟨(W8_of_ne m ρ c main_v3 (by decide)).trans h.src, (W8_of_ne m ρ c main_v7 (by decide)).trans h.dst, (W8_of_ne m ρ c main_v32 (by decide)).trans h.nrm,
    (W8_of_ne m ρ c main_arg4 (by decide)).trans h.b1, (W8_of_ne m ρ c main_arg5 (by decide)).trans h.w2, (W8_of_ne m ρ c main_arg6 (by decide)).trans h.b2⟩

/-! ### Region 3 -/

theorem v47_V8 : V8 m ρ c main_v47 = Cert.Spec.hidden (m ((c : Thread nD τ).loc main_arg0)) (m ((c : Thread nD τ).loc main_arg1)) (m ((c : Thread nD τ).loc main_arg2)) (m ((c : Thread nD τ).loc main_arg3)) (m ((c : Thread nD τ).loc main_arg4)) :=
  v47_8 m ρ c
theorem w2_V8 : V8 m ρ c main_arg5 = (m ((c : Thread nD τ).loc main_arg5)) := (carried8 m ρ c).w2

/-- After the fourth region: the second layer's projection. -/
theorem v48_9 : W9 m ρ c (Proc.devRef .tc main_v48)
    = Cert.Gcn.matProd (Cert.Spec.hidden (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) := by
  refine (W9_arr m ρ c 2).trans ((Cert.KernelIdeal.RegionValue.final3 (V8 m ρ) c).trans ?_)
  rw [v47_V8, w2_V8]

/-- The second weight matrix is this region's own input: an input window's array ends as it was entered. -/
theorem carried9 : Carried m c (W9 m ρ c) :=
  have h := carried8 m ρ c
  ⟨(W9_of_ne m ρ c main_v3 (by decide)).trans h.src, (W9_of_ne m ρ c main_v7 (by decide)).trans h.dst, (W9_of_ne m ρ c main_v32 (by decide)).trans h.nrm,
    (W9_of_ne m ρ c main_arg4 (by decide)).trans h.b1, (W9_arr m ρ c 1).trans (((dat3 (V8 m ρ) c).arrAt_in 1 rfl _).trans ((A_eq3 (V8 m ρ) c 1).trans h.w2)), (W9_of_ne m ρ c main_arg6 (by decide)).trans h.b2⟩

/-! ### Region 4 -/

theorem carried10 : Carried m c (W10 m ρ c) := (carried9 m ρ c).host.2.2.1

theorem v55_10 : V10 m ρ c main_v55 = Cert.Spec.gather2
    (Cert.Gcn.matProd (Cert.Spec.hidden (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)))
    (Cert.Spec.endpoints0 (m ((c : Thread nD τ).loc main_arg1))) := by
  refine (s4_v55 (W9 m ρ c)).trans ?_
  rw [v48_9, (carried9 m ρ c).src]

theorem v56_10 : V10 m ρ c main_v56 = Cert.Gcn.col (Cert.Spec.norm (m ((c : Thread nD τ).loc main_arg1)) (m ((c : Thread nD τ).loc main_arg2))) := by
  refine (s4_v56 (W9 m ρ c)).trans ?_
  rw [(carried9 m ρ c).nrm]

/-- After the fifth region: the second layer's messages. -/
theorem v57_11 : W11 m ρ c (Proc.devRef .tc main_v57)
    = Cert.Gcn.rowScale (Cert.Spec.gather2
        (Cert.Gcn.matProd (Cert.Spec.hidden (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)))
        (Cert.Spec.endpoints0 (m ((c : Thread nD τ).loc main_arg1)))) (Cert.Gcn.col (Cert.Spec.norm (m ((c : Thread nD τ).loc main_arg1)) (m ((c : Thread nD τ).loc main_arg2)))) := by
  refine (W11_arr m ρ c 2).trans ((Cert.KernelIdeal.RegionValue.final4 (V10 m ρ) c).trans ?_)
  rw [v55_10, v56_10]

theorem carried11 : Carried m c (W11 m ρ c) :=
  have h := carried10 m ρ c
  ⟨(W11_of_ne m ρ c main_v3 (by decide)).trans h.src, (W11_of_ne m ρ c main_v7 (by decide)).trans h.dst, (W11_of_ne m ρ c main_v32 (by decide)).trans h.nrm,
    (W11_of_ne m ρ c main_arg4 (by decide)).trans h.b1, (W11_of_ne m ρ c main_arg5 (by decide)).trans h.w2, (W11_of_ne m ρ c main_arg6 (by decide)).trans h.b2⟩

/-! ### Region 5 and the result -/

theorem v60_12 : V12 m ρ c main_v60 = Cert.Spec.scatter2 (Cert.Spec.endpoints1 (m ((c : Thread nD τ).loc main_arg1)))
    (Cert.Gcn.rowScale (Cert.Spec.gather2
        (Cert.Gcn.matProd (Cert.Spec.hidden (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)))
        (Cert.Spec.endpoints0 (m ((c : Thread nD τ).loc main_arg1)))) (Cert.Gcn.col (Cert.Spec.norm (m ((c : Thread nD τ).loc main_arg1)) (m ((c : Thread nD τ).loc main_arg2))))) := by
  refine (s5_v60 (W11 m ρ c)).trans ?_
  rw [v57_11, (carried11 m ρ c).dst]

theorem v61_12 : V12 m ρ c main_v61 = Cert.Gcn.row (m ((c : Thread nD τ).loc main_arg6)) := by
  refine (s5_v61 (W11 m ρ c)).trans ?_
  rw [(carried11 m ρ c).b2]

/-- At the last boundary the result buffer holds the specification of the launch arrays. -/
theorem result_13 : W13 m ρ c (Proc.devRef .tc main_v62)
    = Cert.Spec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W13_arr m ρ c 2).trans ((Cert.KernelIdeal.RegionValue.final5 (V12 m ρ) c).trans ?_)
  rw [v60_12, v61_12]
  rfl

end Cert.KernelIdeal.Chain

end
-- ==== Proof.RefValue.lean ====
/-
  The reference's result is the specification.

  The reference's run ends with its result at one long term of the argument arrays: the host operations composed. Read from the
  outside in, that term is the specification's: the last sum with the doubly broadcast bias is the bias row added to every row; the
  product with the doubly broadcast coefficients scales every gathered row by its coefficient; each `dot_general` is a matrix product;
  the maximum with the broadcast zero after the first layer's bias is the positive part; and the index arithmetic, the gathers
  and the scatter-adds are the very operations the specification's stages name. The coefficient is computed twice by the
  reference, from the same arrays, so both copies are the one stage `norm`.
-/
import proofs.«100964_j88845693485538_1_alg».proof.Proof.Gen.ReferenceIdeal.Run
import proofs.«100964_j88845693485538_1_alg».proof.Proof.Spec
import proofs.«100964_j88845693485538_1_alg».proof.Proof.LibHostOps

set_option maxRecDepth 16384

noncomputable section

namespace Cert.ReferenceIdeal.RefValue

open Cert.ReferenceIdeal Cert.ReferenceIdeal.Gen Idealize.ShloMosaic Idealize.ShloMosaic.TcCoe Idealize.SL.Sem

/-- The specification, with its dense steps spelt as the host spells them, is the term the reference's run states. -/
theorem spec_eq_res (m : (ℓ : Loc nD τ sig) → Buf (Elt Ideal) ℓ) (c : Dev nD) :
    Cert.Spec.result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6))
      = Cert.ReferenceIdeal.Value.res_main_v100 (F := Ideal) m c := by
  unfold Cert.Spec.result Cert.Spec.hidden
  rw [← Cert.HostOps.addf_broadcast_row _ _ bcast_S2_S1x2_1 bcast_S1x2_S100000x2_0_1,
    ← Cert.HostOps.mulf_broadcast_col _ _ bcast_S3300000_S3300000x1_0 bcast_S3300000x1_S3300000x2_0_1,
    ← Cert.HostOps.dotGeneral_plain dot_S100000x64_S64x2_S100000x2_1_0_0_1_n_n rfl none .single,
    ← Cert.HostOps.maximumf_addf_broadcast_row _ _ _ bcast_S64_S1x64_1 bcast_S1x64_S100000x64_0_1 bcast_S_S100000x64,
    ← Cert.HostOps.mulf_broadcast_col _ _ bcast_S3300000_S3300000x1_0 bcast_S3300000x1_S3300000x64_0_1,
    ← Cert.HostOps.dotGeneral_plain dot_S100000x128_S128x64_S100000x64_1_0_0_1_n_n rfl none .single]
  unfold Cert.ReferenceIdeal.Value.res_main_v100 Cert.Spec.scatter2 Cert.Spec.gather2 Cert.Spec.scatter64 Cert.Spec.gather64 Cert.Spec.norm
    Cert.Spec.normOf Cert.Spec.dinvOf Cert.Spec.degOf Cert.Spec.wrap Cert.Spec.ewf Cert.Spec.endpoints0 Cert.Spec.endpoints1
  rfl

end Cert.ReferenceIdeal.RefValue

end
-- ==== Proof.lean ====
/-
  Two graph-convolution layers: the kernel program against the plain reference, over the extended reals.

  Both programs compute, for node features `x`, an edge list with weights, two weight matrices and two biases,
  `out = Â · max(Â · (x W1) + b1, 0) · W2 + b2`, where `Â` sums into each destination node the rows of its incoming edges' source
  nodes, each scaled by `dinv[src] · w · dinv[dst]` (a self-loop of weight one added per node, `dinv` the inverse square root of
  the weighted in-degree where positive and zero elsewhere). The kernel program runs the three dense steps of each layer (the
  projection, the scaling of the gathered rows, the bias with the positive part) as blocked kernels and leaves the gathers and the
  scatter-adds to the host; the reference is host operations throughout. Index by index the dense steps are the same sums,
  products and maxima on both sides (a matrix product into a zero accumulator is the host's `dot_general`; narrowing the product's
  operands is the identity on the extended reals; a reshape to a column or a row is the host's broadcast), and everything else is
  the same host operation applied to equal arrays. No term is moved across a sum, so the inputs' finiteness is not used.

  The three frames: the two kernel programs' are the generated frame certificates; the reference's is its run with the result
  dropped. The idealization rewrote nothing, so `preserves` is trivial. For `algebraic`, the kernel program's run ends with its
  result at the specification of the launch arrays (the chain through its boundaries), the reference's run ends with its result at
  the same specification (its term read back), and the two memories agree on the arguments.
-/
import proofs.«100964_j88845693485538_1_alg».proof.Defs
import proofs.«100964_j88845693485538_1_alg».proof.Proof.Gen.Kernel
import proofs.«100964_j88845693485538_1_alg».proof.Proof.Gen.Kernel.Skeleton
import proofs.«100964_j88845693485538_1_alg».proof.Proof.Gen.Kernel.Launch
import proofs.«100964_j88845693485538_1_alg».proof.Proof.Gen.Kernel.Points
import proofs.«100964_j88845693485538_1_alg».proof.Proof.Gen.Kernel.Frame
import proofs.«100964_j88845693485538_1_alg».proof.Proof.Gen.KernelIdeal
import proofs.«100964_j88845693485538_1_alg».proof.Proof.Gen.KernelIdeal.Skeleton
import proofs.«100964_j88845693485538_1_alg».proof.Proof.Gen.KernelIdeal.Launch
import proofs.«100964_j88845693485538_1_alg».proof.Proof.Gen.KernelIdeal.Points
import proofs.«100964_j88845693485538_1_alg».proof.Proof.Gen.KernelIdeal.Frame
import proofs.«100964_j88845693485538_1_alg».proof.Proof.Gen.ReferenceIdeal
import proofs.«100964_j88845693485538_1_alg».proof.Proof.Gen.Pre_finite_inputs
import proofs.«100964_j88845693485538_1_alg».proof.Proof.Gen.ReferenceIdeal.Run
import proofs.«100964_j88845693485538_1_alg».proof.Proof.KernelIdealRun
import proofs.«100964_j88845693485538_1_alg».proof.Proof.Chain
import proofs.«100964_j88845693485538_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at the specification of the kernel program's launch arrays. -/
theorem algebraic : Cert.algebraic_KernelIdeal_ReferenceIdeal := by
  intro m ρ m' ρ' _ hagree
  refine ⟨fun c => Cert.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Chain.result_13 m ρ c), (h c).2⟩)
      (Cert.KernelIdeal.NamedRun.run (F := Ideal) m ρ)
  · refine (θ_run Cert.ReferenceIdeal.defs _ _).mono (fun r h c => ⟨(h c).1.trans ?_, (h c).2⟩)
      (Cert.ReferenceIdeal.Value.run (F := Ideal) m' ρ')
    rw [← Cert.ReferenceIdeal.RefValue.spec_eq_res m' c, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
